-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v98)) (v1 : (c : Dev Cert.KernelIdeal.nD) → Buf (Elt Ideal) ((c.tc : Thread Cert.KernelIdeal.nD Cert.KernelIdeal.τ).loc Cert.KernelIdeal.main_v101)) (v2 : (c : Dev Cert.KernelIdeal.nD) → Buf (Elt Ideal) ((c.tc : Thread Cert.KernelIdeal.nD Cert.KernelIdeal.τ).loc Cert.KernelIdeal.main_v48_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_v48_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S2x4096 : Shape := ⟨2, ![2, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) (main_arg3 : IVec S2x4096 32) (main_arg4 : IVec S2x4096 32) (main_arg5 : IVec S2x4096 32) (main_arg6 : IVec S2x4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S2x4096 : Shape := ⟨2, ![2, 4096]⟩
abbrev S1x4096 : Shape := ⟨2, ![1, 4096]⟩
abbrev S1024x1024 : Shape := ⟨2, ![1024, 1024]⟩
abbrev S1x1024 : Shape := ⟨2, ![1, 1024]⟩
abbrev S1024 : Shape := ⟨1, ![1024]⟩
abbrev S4096 : Shape := ⟨1, ![4096]⟩
abbrev S_ : Shape := ⟨0, ![]⟩
abbrev S4096x1 : Shape := ⟨2, ![4096, 1]⟩
abbrev S1024x1 : Shape := ⟨2, ![1024, 1]⟩

abbrev nBuf : Space → Nat
  | .hbm => 134
  | .vmem => 34
  | .smem => 0
  | _ => 0

abbrev hbmTy0_0 (i : Nat) : BufTy := match i % 128 with
  | 0 => ⟨S4096x4096, .f32⟩
  | 1 => ⟨S4096x4096, .f32⟩
  | 2 => ⟨S4096x4096, .f32⟩
  | 3 => ⟨S2x4096, .i32⟩
  | 4 => ⟨S2x4096, .i32⟩
  | 5 => ⟨S2x4096, .i32⟩
  | 6 => ⟨S2x4096, .i32⟩
  | 7 => ⟨S1x4096, .f32⟩
  | 8 => ⟨S4096, .f32⟩
  | 9 => ⟨S_, .f32⟩
  | 10 => ⟨S4096, .f32⟩
  | 11 => ⟨S1x4096, .i32⟩
  | 12 => ⟨S4096, .i32⟩
  | 13 => ⟨S1x4096, .i32⟩
  | 14 => ⟨S4096, .i32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S4096, .f32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096, .f32⟩
  | 33 => ⟨S1x4096, .f32⟩
  | 34 => ⟨S4096, .f32⟩
  | 35 => ⟨S4096x1, .f32⟩
  | 36 => ⟨S4096, .f32⟩
  | 37 => ⟨S_, .f32⟩
  | 38 => ⟨S_, .f32⟩
  | 39 => ⟨S4096, .f32⟩
  | 40 => ⟨S4096, .f32⟩
  | 41 => ⟨S_, .f32⟩
  | 42 => ⟨S4096, .f32⟩
  | 43 => ⟨S1x4096, .i32⟩
  | 44 => ⟨S4096, .i32⟩
  | 45 => ⟨S1x4096, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S4096, .f32⟩
  | 56 => ⟨S_, .i32⟩
  | 57 => ⟨S4096, .i32⟩
  | 58 => ⟨S4096, .i1⟩
  | 59 => ⟨S_, .i32⟩
  | 60 => ⟨S4096, .i32⟩
  | 61 => ⟨S4096, .i32⟩
  | 62 => ⟨S4096, .i32⟩
  | 63 => ⟨S4096x1, .i32⟩
  | 64 => ⟨S4096, .f32⟩
  | 65 => ⟨S4096x1, .f32⟩
  | 66 => ⟨S4096x4096, .f32⟩
  | 67 => ⟨S4096x1, .f32⟩
  | 68 => ⟨S4096, .f32⟩
  | 69 => ⟨S_, .f32⟩
  | 70 => ⟨S4096, .f32⟩
  | 71 => ⟨S4096, .f32⟩
  | 72 => ⟨S4096, .f32⟩
  | 73 => ⟨S_, .f32⟩
  | 74 => ⟨S4096, .f32⟩
  | 75 => ⟨S1x4096, .i32⟩
  | 76 => ⟨S4096, .i32⟩
  | 77 => ⟨S1x4096, .i32⟩
  | 78 => ⟨S4096, .i32⟩
  | 79 => ⟨S_, .i32⟩
  | 80 => ⟨S4096, .i32⟩
  | 81 => ⟨S4096, .i1⟩
  | 82 => ⟨S_, .i32⟩
  | 83 => ⟨S4096, .i32⟩
  | 84 => ⟨S4096, .i32⟩
  | 85 => ⟨S4096, .i32⟩
  | 86 => ⟨S4096x1, .i32⟩
  | 87 => ⟨S4096, .f32⟩
  | 88 => ⟨S_, .i32⟩
  | 89 => ⟨S4096, .i32⟩
  | 90 => ⟨S4096, .i1⟩
  | 91 => ⟨S_, .i32⟩
  | 92 => ⟨S4096, .i32⟩
  | 93 => ⟨S4096, .i32⟩
  | 94 => ⟨S4096, .i32⟩
  | 95 => ⟨S4096x1, .i32⟩
  | 96 => ⟨S4096, .f32⟩
  | 97 => ⟨S_, .f32⟩
  | 98 => ⟨S4096, .f32⟩
  | 99 => ⟨S4096, .f32⟩
  | 100 => ⟨S4096, .f32⟩
  | 101 => ⟨S_, .f32⟩
  | 102 => ⟨S_, .f32⟩
  | 103 => ⟨S4096, .f32⟩
  | 104 => ⟨S4096, .f32⟩
  | 105 => ⟨S_, .f32⟩
  | 106 => ⟨S4096, .f32⟩
  | 107 => ⟨S1x4096, .i32⟩
  | 108 => ⟨S4096, .i32⟩
  | 109 => ⟨S1x4096, .i32⟩
  | 110 => ⟨S4096, .i32⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S4096x1, .i32⟩
  | 119 => ⟨S4096, .f32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S4096x4096, .f32⟩

abbrev hbmTy0_1 (i : Nat) : BufTy := match i % 128 with
  | 0 => ⟨S4096, .f32⟩
  | 1 => ⟨S1x4096, .f32⟩
  | 2 => ⟨S4096x4096, .f32⟩
  | 3 => ⟨S4096x1, .f32⟩
  | 4 => ⟨S1x4096, .f32⟩
  | 5 => ⟨S4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1, .f32⟩
  | .local _ .vmem, ⟨11, _⟩ => ⟨S1024x1, .f32⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1024, .f32⟩
  | .local _ .vmem, ⟨17, _⟩ => ⟨S1024x1024, .f32⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | .local _ .vmem, ⟨21, _⟩ => ⟨S1024x1024, .f32⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1, .f32⟩
  | .local _ .vmem, ⟨29, _⟩ => ⟨S1024x1, .f32⟩
  | .local _ .vmem, ⟨30, _⟩ => ⟨S1x1024, .f32⟩
  | .local _ .vmem, ⟨31, _⟩ => ⟨S1x1024, .f32⟩
  | .local _ .vmem, ⟨32, _⟩ => ⟨S1024x1024, .f32⟩
  | .local _ .vmem, ⟨33, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48_0 : Ref sig .tc := ⟨.hbm, 66, rfl⟩
abbrev main_v48_1 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_18 : Ref sig .tc := ⟨.hbm, 111, rfl⟩
abbrev main_v83 : Ref sig .tc := ⟨.hbm, 112, rfl⟩
abbrev main_v84 : Ref sig .tc := ⟨.hbm, 113, rfl⟩
abbrev main_c_19 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_20 : Ref sig .tc := ⟨.hbm, 120, rfl⟩
abbrev main_v90 : Ref sig .tc := ⟨.hbm, 121, rfl⟩
abbrev main_v91 : Ref sig .tc := ⟨.hbm, 122, rfl⟩
abbrev main_c_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc5_stg3_0 : Ref sig .tc := ⟨.vmem, 32, rfl⟩
abbrev cc5_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc3_sem2_0 : DmaSem sig := 16
abbrev cc3_sem2_1 : DmaSem sig := 17
abbrev cc3_sem3_0 : DmaSem sig := 18
abbrev cc3_sem3_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31
abbrev cc5_sem3_0 : DmaSem sig := 32
abbrev cc5_sem3_1 : DmaSem sig := 33

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  shapeCasts_S1x4096_S4096 : S1x4096.ShapeCasts S4096
  bcast_S_S4096 : S_.BroadcastsInDim S4096 (![] : Fin 0 → Fin S4096.rank)
  slices_S2x4096_S1x4096_1_0 : S2x4096.Slices ![1, 0] S1x4096
  slices_S2x4096_S1x4096_0_0 : S2x4096.Slices ![0, 0] S1x4096
  bcast_S4096_S4096x1_0 : S4096.BroadcastsInDim S4096x1 (![0] : Fin 1 → Fin S4096x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024_2 : S1024x1024.Reduces [1] S1024
  shapeCasts_S1024_S1024x1 : S1024.ShapeCasts S1024x1
  shapeCasts_S4096x1_S4096 : S4096x1.ShapeCasts S4096
  reducesTo_S4096_S_d0 : S4096.ReducesTo [0] S_
  h_S_ : 0 < S_.numel
  shapeCasts_S4096_S4096x1 : S4096.ShapeCasts S4096x1
  broadcasts_S1024x1_S1024x1024 : S1024x1.Broadcasts S1024x1024
  shapeCasts_S4096_S1x4096 : S4096.ShapeCasts S1x4096
  broadcasts_S1x1024_S1024x1024 : S1x1024.Broadcasts S1024x1024
  gather_S4096_S4096x1_S4096_n_0_n_n_0_1_1_wf : GatherDims.WF S4096 S4096x1 S4096 [] [0] [] [0] [] 1 ![1]
  scatter_S4096_S4096x1_S4096_n_0_0_1_wf : ScatterDims.WF S4096 S4096x1 S4096 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x4096.size a
  hwx0_1 : ∀ i : grid0.Coords, EltTy.bits .f32 = 32 ∨ (Rect.block (s := S1x4096) S1x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x4096.size a
  hwx1_1 : ∀ i : grid1.Coords, EltTy.bits .f32 = 32 ∨ (Rect.block (s := S1x4096) S1x1024.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S4096x1.size a
  hwx2_1 : ∀ i : grid2.Coords, EltTy.bits .f32 = 32 ∨ (Rect.block (s := S4096x1) S1024x1.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .f32 = 32 ∨ (Rect.block (s := S4096x4096) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1.size a ≤ S4096x1.size a
  hwx3_1 : ∀ i : grid3.Coords, EltTy.bits .f32 = 32 ∨ (Rect.block (s := S4096x1) S1024x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x4096.size a
  hwx3_2 : ∀ i : grid3.Coords, EltTy.bits .f32 = 32 ∨ (Rect.block (s := S4096x4096) S1024x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S4096x1.size a
  hwx3_3 : ∀ i : grid3.Coords, EltTy.bits .f32 = 32 ∨ (Rect.block (s := S4096x1) S1024x1.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .f32 = 32 ∨ (Rect.block (s := S4096x4096) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1024.size a ≤ S1x4096.size a
  hwx4_1 : ∀ i : grid4.Coords, EltTy.bits .f32 = 32 ∨ (Rect.block (s := S1x4096) S1x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x4096.size a
  hwx4_2 : ∀ i : grid4.Coords, EltTy.bits .f32 = 32 ∨ (Rect.block (s := S4096x4096) S1024x1024.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S4096x4096.size a
  hwx5_0 : ∀ i : grid5.Coords, EltTy.bits .f32 = 32 ∨ (Rect.block (s := S4096x4096) S1024x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1.size a ≤ S4096x1.size a
  hwx5_1 : ∀ i : grid5.Coords, EltTy.bits .f32 = 32 ∨ (Rect.block (s := S4096x1) S1024x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x4096.size a
  hwx5_2 : ∀ i : grid5.Coords, EltTy.bits .f32 = 32 ∨ (Rect.block (s := S1x4096) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x1024.size a ≤ S4096x4096.size a
  hwx5_3 : ∀ i : grid5.Coords, EltTy.bits .f32 = 32 ∨ (Rect.block (s := S4096x4096) S1024x1024.size (cc5_transform_3 i) (hinb5_3 i)).WholeWords (EltTy.packing .f32)

variable [Facts₀]

def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def scatter_S4096_S4096x1_S4096_n_0_0_1 : ScatterDims S4096 S4096x1 S4096 where
  updateWindowDims := []
  insertedWindowDims := [0]
  scatterDimsToOperandDims := [0]
  indexVectorDim := 1
  wf := scatter_S4096_S4096x1_S4096_n_0_0_1_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1024x1.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg2) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1024x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48_0) S1024x1024.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48_1) S1024x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S1x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v98) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg1) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S1024x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v100) S1x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v101) S1024x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S4096x4096 : Shape := ⟨2, ![4096, 4096]⟩
abbrev S2x4096 : Shape := ⟨2, ![2, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩

abbrev nBuf : Space → Nat
  | .hbm => 125
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S2x4096, .i32⟩
  | .hbm, ⟨4, _⟩ => ⟨S2x4096, .i32⟩
  | .hbm, ⟨5, _⟩ => ⟨S2x4096, .i32⟩
  | .hbm, ⟨6, _⟩ => ⟨S2x4096, .i32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S1x4096, .i32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S1x4096, .i32⟩
  | .hbm, ⟨41, _⟩ => ⟨S4096, .i32⟩
  | .hbm, ⟨42, _⟩ => ⟨S1x4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096, .f32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096, .f32⟩
  | .hbm, ⟨62, _⟩ => ⟨S4096x1, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S1x4096, .i32⟩
  | .hbm, ⟨71, _⟩ => ⟨S4096, .i32⟩
  | .hbm, ⟨72, _⟩ => ⟨S1x4096, .i32⟩
  | .hbm, ⟨73, _⟩ => ⟨S4096, .i32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096, .f32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096, .f32⟩
  | .hbm, ⟨92, _⟩ => ⟨S1x4096, .f32⟩
  | .hbm, ⟨93, _⟩ => ⟨S4096x4096, .f32⟩
  | .hbm, ⟨94, _⟩ => ⟨S4096x4096, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S_, .f32⟩
  | .hbm, ⟨99, _⟩ => ⟨S4096, .f32⟩
  | .hbm, ⟨100, _⟩ => ⟨S1x4096, .i32⟩
  | .hbm, ⟨101, _⟩ => ⟨S4096, .i32⟩
  | .hbm, ⟨102, _⟩ => ⟨S1x4096, .i32⟩
  | .hbm, ⟨103, _⟩ => ⟨S4096, .i32⟩
  | .hbm, ⟨104, _⟩ => ⟨S_, .i32⟩
  | .hbm, ⟨105, _⟩ => ⟨S4096, .i32⟩
  | .hbm, ⟨106, _⟩ => ⟨S4096, .i1⟩
  | .hbm, ⟨107, _⟩ => ⟨S_, .i32⟩
  | .hbm, ⟨108, _⟩ => ⟨S4096, .i32⟩
  | .hbm, ⟨109, _⟩ => ⟨S4096, .i32⟩
  | .hbm, ⟨110, _⟩ => ⟨S4096, .i32⟩
  | .hbm, ⟨111, _⟩ => ⟨S4096x1, .i32⟩
  | .hbm, ⟨112, _⟩ => ⟨S4096, .f32⟩
  | .hbm, ⟨113, _⟩ => ⟨S_, .i32⟩
  | .hbm, ⟨114, _⟩ => ⟨S4096, .i32⟩
  | .hbm, ⟨115, _⟩ => ⟨S4096, .i1⟩
  | .hbm, ⟨116, _⟩ => ⟨S_, .i32⟩
  | .hbm, ⟨117, _⟩ => ⟨S4096, .i32⟩
  | .hbm, ⟨118, _⟩ => ⟨S4096, .i32⟩
  | .hbm, ⟨119, _⟩ => ⟨S4096, .i32⟩
  | .hbm, ⟨120, _⟩ => ⟨S4096x1, .i32⟩
  | .hbm, ⟨121, _⟩ => ⟨S4096, .f32⟩
  | .hbm, ⟨122, _⟩ => ⟨S1x4096, .f32⟩
  | .hbm, ⟨123, _⟩ => ⟨S4096x4096, .f32⟩
  | .hbm, ⟨124, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_14 : Ref sig .tc := ⟨.hbm, 83, rfl⟩
abbrev main_v60 : Ref sig .tc := ⟨.hbm, 84, rfl⟩
abbrev main_v61 : Ref sig .tc := ⟨.hbm, 85, rfl⟩
abbrev main_c_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_16 : Ref sig .tc := ⟨.hbm, 95, rfl⟩
abbrev main_v70 : Ref sig .tc := ⟨.hbm, 96, rfl⟩
abbrev main_v71 : Ref sig .tc := ⟨.hbm, 97, rfl⟩
abbrev main_cst_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_18 : Ref sig .tc := ⟨.hbm, 104, rfl⟩
abbrev main_v77 : Ref sig .tc := ⟨.hbm, 105, rfl⟩
abbrev main_v78 : Ref sig .tc := ⟨.hbm, 106, rfl⟩
abbrev main_c_19 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_20 : Ref sig .tc := ⟨.hbm, 113, rfl⟩
abbrev main_v84 : Ref sig .tc := ⟨.hbm, 114, rfl⟩
abbrev main_v85 : Ref sig .tc := ⟨.hbm, 115, rfl⟩
abbrev main_c_21 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  bcast_S_S4096 : S_.BroadcastsInDim S4096 (![] : Fin 0 → Fin S4096.rank)
  slices_S2x4096_S1x4096_1_0 : S2x4096.Slices ![1, 0] S1x4096
  shapeCasts_S1x4096_S4096 : S1x4096.ShapeCasts S4096
  slices_S2x4096_S1x4096_0_0 : S2x4096.Slices ![0, 0] S1x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  reducesTo_S4096x4096_S4096_d1 : S4096x4096.ReducesTo [1] S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  gather_S4096_S4096x1_S4096_n_0_n_n_0_1_1_wf : GatherDims.WF S4096 S4096x1 S4096 [] [0] [] [0] [] 1 ![1]
  scatter_S4096_S4096x1_S4096_n_0_0_1_wf : ScatterDims.WF S4096 S4096x1 S4096 [] [0] [0] 1

variable [Facts₀]

def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def scatter_S4096_S4096x1_S4096_n_0_0_1 : ScatterDims S4096 S4096x1 S4096 where
  updateWindowDims := []
  insertedWindowDims := [0]
  scatterDimsToOperandDims := [0]
  indexVectorDim := 1
  wf := scatter_S4096_S4096x1_S4096_n_0_0_1_wf

class Facts : Prop extends Facts₀ where

variable [Facts]
-- ==== Proof.Spec.lean ====
/-
  The message-passing schedule on three cliques, as mathematics over the extended reals.
  A matrix is a function on pairs of indices below 4096, a vector a function on indices below 4096.
  Two forms of the same schedule are stated: the one that sums each matrix once and corrects the sums of
  "matrix plus a broadcast vector" by a multiple of the vector, and the one that adds the broadcast vector
  first and sums afterwards, subtracting the stored message. The remaps between cliques (a gather followed
  by a scatter-add) are carried as unopened functions of a vector.
-/
import Idealize.ShloMosaic.PureOps.Ideal
import Idealize.ShloMosaic.Lib.ValueIdx

noncomputable section

open scoped BigOperators

namespace Cert.BP

open Idealize.ShloMosaic Idealize.ShloMosaic.ValueIdx

/-- The shapes: a 4096 × 4096 matrix, a vector, a column, a row, an index pair table, a scalar. -/
abbrev SM : Shape := ⟨2, ![4096, 4096]⟩
abbrev SV : Shape := ⟨1, ![4096]⟩
abbrev SC : Shape := ⟨2, ![4096, 1]⟩
abbrev SR : Shape := ⟨2, ![1, 4096]⟩
abbrev SO : Shape := ⟨2, ![2, 4096]⟩
abbrev S0 : Shape := ⟨0, ![]⟩

abbrev Mat := SM.Idx → EReal
abbrev Vect := SV.Idx → EReal

/-- The sum of each column (over the row index). -/
def colsum (θ : Mat) : Vect := fun j => ∑ i : Fin 4096, θ (ix2 i (j 0))
/-- The sum of each row (over the column index). -/
def rowsum (θ : Mat) : Vect := fun i => ∑ j : Fin 4096, θ (ix2 (i 0) j)
/-- The sum of a vector's entries. -/
def total (v : Vect) : EReal := ∑ i : Fin 4096, v (ix1 i)
/-- A vector added along the rows: entry (i, j) gets v i. -/
def plusCol (θ : Mat) (v : Vect) : Mat := fun p => θ p + v (ix1 (p 0))
/-- A vector added along the columns: entry (i, j) gets v j. -/
def plusRow (θ : Mat) (v : Vect) : Mat := fun p => θ p + v (ix1 (p 1))

/-- The same sums and additions with the vector laid out as a row [1, 4096] or a column [4096, 1]. -/
def colsumRow (θ : Mat) : SR.Idx → EReal := fun p => ∑ i : Fin 4096, θ (ix2 i (p 1))
def rowsumCol (θ : Mat) : SC.Idx → EReal := fun p => ∑ j : Fin 4096, θ (ix2 (p 0) j)
def plusColM (θ : Mat) (v : SC.Idx → EReal) : Mat := fun p => θ p + v (ix2 (p 0) (0 : Fin 1))
def plusRowM (θ : Mat) (v : SR.Idx → EReal) : Mat := fun p => θ p + v (ix2 (0 : Fin 1) (p 1))

/-- The float 4095 as its binary word read at the ideal instance. -/
def k4095 : EReal := Ideal.ofBits .f32 0x457FF000#32

/-- A value that is a real number (neither infinity). -/
def IsReal (x : EReal) : Prop := ∃ r : ℝ, x = (r : EReal)

section Schedule
variable (R0 R1 R2 R3 : Vect → Vect) (θ0 θ1 θ2 : Mat)

/-- Sums first: every matrix is summed as it is, the broadcast vectors enter as multiples. -/
def m0 : Vect := R0 (colsum θ0)
def m1K : Vect := R1 (fun j => colsum θ1 j + total (m0 R0 θ0))
def m2K : Vect := R2 (fun i => rowsum θ2 i + k4095 * m1K R0 R1 θ0 θ1 i)
def m3K : Vect := R3 (fun i => rowsum θ1 i + k4095 * m0 R0 θ0 i + total (m2K R0 R1 R2 θ0 θ1 θ2))
def out0K : Mat := plusRow θ0 (m3K R0 R1 R2 R3 θ0 θ1 θ2)
def out1K : Mat := plusRow (plusCol θ1 (m0 R0 θ0)) (m2K R0 R1 R2 θ0 θ1 θ2)
def out2K : Mat := plusCol θ2 (m1K R0 R1 θ0 θ1)

/-- Additions first: the vector is broadcast into the matrix, the matrix summed, the stored message subtracted. -/
def m1R : Vect := R1 (colsum (plusCol θ1 (m0 R0 θ0)))
def m2R : Vect := R2 (fun i => rowsum (plusCol θ2 (m1R R0 R1 θ0 θ1)) i - m1R R0 R1 θ0 θ1 i)
def m3R : Vect := R3 (fun i => rowsum (plusRow (plusCol θ1 (m0 R0 θ0)) (m2R R0 R1 R2 θ0 θ1 θ2)) i - m0 R0 θ0 i)
def out0R : Mat := plusRow θ0 (m3R R0 R1 R2 R3 θ0 θ1 θ2)
def out1R : Mat := plusRow (plusCol θ1 (m0 R0 θ0)) (m2R R0 R1 R2 θ0 θ1 θ2)
def out2R : Mat := plusCol θ2 (m1R R0 R1 θ0 θ1)

end Schedule

/-- The remap between two cliques as the host computes it: the second row of the table, wrapped if negative,
    says where each gathered entry is added; the first row, wrapped if negative, says which entry is gathered. -/
def remapG {F : FTy → Type} [FloatOps F] (g : GatherDims SV SC SV) (s : ScatterDims SV SC SV)
    (hb : S0.BroadcastsInDim SV (![] : Fin 0 → Fin SV.rank)) (hs1 : SO.Slices ![1, 0] SR) (hs0 : SO.Slices ![0, 0] SR)
    (hc : SR.ShapeCasts SV) (hbc : SV.BroadcastsInDim SC (![0] : Fin 1 → Fin SC.rank))
    (proc : FVec F SV .f32) (op : IVec SO 32) : FVec F SV .f32 :=
  Host.scatterAdd s (broadcastInDim SV ![] hb (constant S0 .f32 0x00000000#32))
    (broadcastInDim SC ![0] hbc (select (cmpi .slt (shapeCast _ (extractStridedSlice SR ![1, 0] op hs1) hc) (broadcastInDim SV ![] hb (constantI S0 32 0#32))) (addi (shapeCast _ (extractStridedSlice SR ![1, 0] op hs1) hc) (broadcastInDim SV ![] hb (constantI S0 32 4096#32))) (shapeCast _ (extractStridedSlice SR ![1, 0] op hs1) hc)))
    (Host.gather g proc (broadcastInDim SC ![0] hbc (select (cmpi .slt (shapeCast _ (extractStridedSlice SR ![0, 0] op hs0) hc) (broadcastInDim SV ![] hb (constantI S0 32 0#32))) (addi (shapeCast _ (extractStridedSlice SR ![0, 0] op hs0) hc) (broadcastInDim SV ![] hb (constantI S0 32 4096#32))) (shapeCast _ (extractStridedSlice SR ![0, 0] op hs0) hc))))

end Cert.BP

end
-- ==== Proof.SpecAlg.lean ====
/-
  The two forms of the message-passing schedule agree when the first two matrices hold real numbers.
  Summing "matrix plus a vector broadcast along an axis" over that axis gives the matrix's sum plus 4096 times the
  vector's entry; subtracting the entry once more leaves 4095 times it. That last step cancels a value against
  itself, which on the extended reals is only right for a real number: so every message must be shown real, which
  holds because sums of real numbers are real and the remaps (a gather, then sums of gathered entries added to zero)
  keep real vectors real.
-/
import proofs.«179160_j61564061221583_1_alg».proof.Proof.Spec
import Idealize.ShloMosaic.PureOps.Ideal.Laws
import Mathlib.Data.EReal.Basic
import Mathlib.Data.EReal.Operations
import Mathlib.Algebra.BigOperators.Fin

noncomputable section

open scoped BigOperators

namespace Cert.BP

open Idealize.ShloMosaic Idealize.ShloMosaic.ValueIdx

/-- The float word 0x457FF000 is 4095. -/
theorem k4095_eq : k4095 = ((4095 : ℝ) : EReal) := by
  -- sign 0, exponent field 138 (so 2 ^ 11), fraction field 0x7FF000: (2 ^ 23 + 8384512) · 2 ^ (11 - 23) = 4095
  unfold k4095
  simp [Ideal.ofBits, Ideal.ieee, -EReal.coe_mul]; norm_num

/-- The sum of two real numbers is a real number. -/
theorem isReal_add {x y : EReal} (hx : IsReal x) (hy : IsReal y) : IsReal (x + y) := by
  obtain ⟨r, rfl⟩ := hx
  obtain ⟨q, rfl⟩ := hy
  exact ⟨r + q, (EReal.coe_add r q).symm⟩

/-- A finite sum of real numbers is a real number. -/
theorem isReal_sum {ι : Type} (s : Finset ι) (f : ι → EReal) (h : ∀ i ∈ s, IsReal (f i)) : IsReal (∑ i ∈ s, f i) := by
  classical
  revert h
  -- the empty sum is the real number zero; one more term adds one more real number
  refine Finset.induction_on s (fun _ => ⟨0, by rw [Finset.sum_empty, EReal.coe_zero]⟩) ?_
  intro a t ha ih h
  rw [Finset.sum_insert ha]
  exact isReal_add (h a (Finset.mem_insert_self a t)) (ih fun i hi => h i (Finset.mem_insert_of_mem hi))

/-- The accumulating scatter of real updates into a real operand is real: each entry is the operand's plus a finite
    sum of updates, whichever updates land there. -/
theorem hostScatterAdd_isReal {s si su : Shape} (d : ScatterDims s si su) {w : Nat} (x : s.Idx → EReal) (idx : IVec si w)
    (upd : su.Idx → EReal) (hx : ∀ i, IsReal (x i)) (hu : ∀ j, IsReal (upd j)) :
    ∀ i, IsReal (Ideal.hostScatterAdd d x idx upd i) := fun i =>
  isReal_add (hx i) (isReal_sum _ _ fun j _ => hu j)

/-- The remap keeps a vector of real numbers real: each entry is zero plus a sum of gathered entries. -/
theorem remapG_isReal (g : GatherDims SV SC SV) (s : ScatterDims SV SC SV)
    (hb : S0.BroadcastsInDim SV (![] : Fin 0 → Fin SV.rank)) (hs1 : SO.Slices ![1, 0] SR) (hs0 : SO.Slices ![0, 0] SR)
    (hc : SR.ShapeCasts SV) (hbc : SV.BroadcastsInDim SC (![0] : Fin 1 → Fin SC.rank))
    (proc : FVec Ideal SV .f32) (op : IVec SO 32) (h : ∀ i, IsReal (proc i)) :
    ∀ i, IsReal (remapG (F := Ideal) g s hb hs1 hs0 hc hbc proc op i) := by
  unfold remapG
  refine hostScatterAdd_isReal s _ _ _ (fun i => ⟨0, ?_⟩) (fun j => ?_)
  · -- the operand is the broadcast of the zero word, which reads zero everywhere
    show Ideal.ofBits .f32 0x00000000#32 = ((0 : ℝ) : EReal)
    rw [Ideal.ofBits_zero_f32, EReal.coe_zero]
  · -- a gathered entry is some entry of the gathered vector
    exact h _

/-- (i) Summing a column of "matrix plus a vector along the rows" gives the column's sum plus the vector's total. -/
theorem colsum_plusCol (θ : Mat) (v : Vect) (j : SV.Idx) : colsum (plusCol θ v) j = colsum θ j + total v := by
  show ∑ i : Fin 4096, (θ (ix2 i (j 0)) + v (ix1 i)) = (∑ i : Fin 4096, θ (ix2 i (j 0))) + ∑ i : Fin 4096, v (ix1 i)
  exact Finset.sum_add_distrib

/-- Next to any extended real, a real number added 4096 times and taken away once is 4095 times it. -/
theorem add_nsmul_sub (a : EReal) (r : ℝ) : a + (4096 : ℕ) • (r : EReal) - (r : EReal) = a + k4095 * (r : EReal) := by
  rw [k4095_eq, ← EReal.coe_nsmul, sub_eq_add_neg, ← EReal.coe_neg, add_assoc, ← EReal.coe_add, ← EReal.coe_mul]
  congr 2
  rw [nsmul_eq_mul]; push_cast; ring

/-- (ii) Summing a row of "matrix plus a vector along the rows" adds the vector's entry 4096 times; with the entry a real
    number, taking it away once leaves 4095 times it. -/
theorem rowsum_plusCol_sub (θ : Mat) (v : Vect) (i : SV.Idx) (hv : IsReal (v i)) :
    rowsum (plusCol θ v) i - v i = rowsum θ i + k4095 * v i := by
  have hi : v (ix1 (i 0)) = v i := congrArg v (eq_ix1 i).symm
  have hsum : rowsum (plusCol θ v) i = rowsum θ i + (4096 : ℕ) • v i := by
    show ∑ j : Fin 4096, (θ (ix2 (i 0) j) + v (ix1 (i 0))) = (∑ j : Fin 4096, θ (ix2 (i 0) j)) + (4096 : ℕ) • v i
    rw [Finset.sum_add_distrib, Finset.sum_const, Finset.card_univ, Fintype.card_fin, hi]
  obtain ⟨r, hr⟩ := hv
  rw [hsum, hr]
  exact add_nsmul_sub _ r

/-- (iii) The same with a second vector added along the columns: its total comes out of the row's sum unchanged. -/
theorem rowsum_plusRow_plusCol_sub (θ : Mat) (v w : Vect) (i : SV.Idx) (hv : IsReal (v i)) :
    rowsum (plusRow (plusCol θ v) w) i - v i = rowsum θ i + k4095 * v i + total w := by
  have hi : v (ix1 (i 0)) = v i := congrArg v (eq_ix1 i).symm
  have hsum : rowsum (plusRow (plusCol θ v) w) i = rowsum θ i + total w + (4096 : ℕ) • v i := by
    show ∑ j : Fin 4096, (θ (ix2 (i 0) j) + v (ix1 (i 0)) + w (ix1 j))
      = (∑ j : Fin 4096, θ (ix2 (i 0) j)) + (∑ j : Fin 4096, w (ix1 j)) + (4096 : ℕ) • v i
    rw [Finset.sum_add_distrib, Finset.sum_add_distrib, Finset.sum_const, Finset.card_univ, Fintype.card_fin, hi,
      add_right_comm]
  obtain ⟨r, hr⟩ := hv
  rw [hsum, hr, add_nsmul_sub, add_right_comm]

/-- THE TWO FORMS AGREE: with the first two matrices real and the first two remaps keeping real vectors real. -/
theorem schedule_eq (R0 R1 R2 R3 : Vect → Vect) (θ0 θ1 θ2 : Mat)
    (hθ0 : ∀ p, IsReal (θ0 p)) (hθ1 : ∀ p, IsReal (θ1 p))
    (h0 : ∀ v : Vect, (∀ i, IsReal (v i)) → ∀ i, IsReal (R0 v i))
    (h1 : ∀ v : Vect, (∀ i, IsReal (v i)) → ∀ i, IsReal (R1 v i)) :
    out0R R0 R1 R2 R3 θ0 θ1 θ2 = out0K R0 R1 R2 R3 θ0 θ1 θ2
    ∧ out1R R0 R1 R2 θ0 θ1 θ2 = out1K R0 R1 R2 θ0 θ1 θ2
    ∧ out2R R0 R1 θ0 θ1 θ2 = out2K R0 R1 θ0 θ1 θ2 := by
  -- the first message is the same in both forms, and real: the remap of column sums of a real matrix
  have hm0 : ∀ i, IsReal (m0 R0 θ0 i) := h0 _ fun j => isReal_sum _ _ fun i _ => hθ0 (ix2 i (j 0))
  -- the second message: by (i) the two forms remap the same vector, a real one
  have e1 : m1R R0 R1 θ0 θ1 = m1K R0 R1 θ0 θ1 := by
    unfold m1R m1K
    exact congrArg R1 (funext fun j => colsum_plusCol θ1 _ j)
  have hm1 : ∀ i, IsReal (m1K R0 R1 θ0 θ1 i) :=
    h1 _ fun j => isReal_add (isReal_sum _ _ fun i _ => hθ1 (ix2 i (j 0))) (isReal_sum _ _ fun i _ => hm0 (ix1 i))
  -- the third message: by (ii), the second message being real
  have e2 : m2R R0 R1 R2 θ0 θ1 θ2 = m2K R0 R1 R2 θ0 θ1 θ2 := by
    unfold m2R m2K
    rw [e1]
    exact congrArg R2 (funext fun i => rowsum_plusCol_sub θ2 _ i (hm1 i))
  -- the fourth message: by (iii), the first message being real
  have e3 : m3R R0 R1 R2 R3 θ0 θ1 θ2 = m3K R0 R1 R2 R3 θ0 θ1 θ2 := by
    unfold m3R m3K
    rw [e2]
    exact congrArg R3 (funext fun i => rowsum_plusRow_plusCol_sub θ1 _ _ i (hm0 i))
  refine ⟨?_, ?_, ?_⟩
  · unfold out0R out0K; rw [e3]
  · unfold out1R out1K; rw [e2]
  · unfold out2R out2K; rw [e1]

end Cert.BP

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KReg0.lean ====
/-
  The column-sum region over the first matrix: a 4 × 4 grid of 1024 × 1024 tiles, the row-tile index moving fastest;
  the [1, 1024] output tile of a column-tile is zeroed at the first row-tile and takes the tile's column sums at each.
  What the [1, 4096] result array holds at the region's exit is the column sum of the whole matrix as the region found it.
-/
import proofs.«179160_j61564061221583_1_alg».proof.Proof.Gen.KernelIdeal.Frame
import proofs.«179160_j61564061221583_1_alg».proof.Proof.Spec
import proofs.«179160_j61564061221583_1_alg».proof.Proof.LibLayout
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen Cert.BP

namespace R0

theorem hz : (![0, 0] : Fin 2 → Nat) = fun _ => 0 := funext fun a => by fin_cases a <;> rfl

section Pieces
variable {F : FTy → Type} [FloatOps F]

/-- Past the first row-tile the body leaves, in the result's tile holding `xo`, the update of `xo` by the matrix tile. -/
theorem out_B (c : Dev nD) (i : grid0.Coords) (a2 : Memref sig .tc .vmem S1024x1024 .f32) (h2 : a2.IsWhole)
    (a3 : Memref sig .tc .vmem S1x1024 .f32) (h3 : a3.IsWhole) (hc : ¬cond0_0 i)
    (x : Vec F S1024x1024 .f32) (xo : Vec F S1x1024 .f32) :
    out0_B_1 c i a2 h2 a3 h3 hc x xo = k0_pay2 xo x := by
  unfold out0_B_1
  rw [View.read_writes_eq_canon _ _ _ (cover0_B_1 c i a2 h2 a3 h3 hc x xo)]
  unfold kernelRun0_B
  dsimp only
  sl_unfold_words
  rw [View.canon_unit_zero (S := S1x1024) hz]
  simp only [View.readAt_eq_ld, h2.read_unread, h3.read_unread, View.ld_unit_zero (S := S1x1024) hz,
    View.ld_unit_zero (S := S1024x1024) hz]

/-- At the first row-tile the body stores the zero tile, reads it back, and leaves its update by the matrix tile. -/
theorem out_A (c : Dev nD) (i : grid0.Coords) (a2 : Memref sig .tc .vmem S1024x1024 .f32) (h2 : a2.IsWhole)
    (a3 : Memref sig .tc .vmem S1x1024 .f32) (h3 : a3.IsWhole) (hc : cond0_0 i)
    (x : Vec F S1024x1024 .f32) :
    out0_A_1 c i a2 h2 a3 h3 hc x = k0_pay2 (k0_pay1 (F := F)) x := by
  unfold out0_A_1
  rw [View.read_writes_eq_canon _ _ _ (cover0_A_1 c i a2 h2 a3 h3 hc x)]
  unfold kernelRun0_A
  dsimp only
  sl_unfold_words
  rw [View.canon_cons_unit_zero (S := S1x1024) hz, View.readCov_unit_zero (S := S1x1024) _ hz]
  simp only [View.readAt_eq_ld, h2.read_unread, View.ld_unit_zero (S := S1024x1024) hz]

end Pieces

/-- The zero tile, read at an index: the extended real 0. -/
theorem pay1_apply (j : S1x1024.Idx) : k0_pay1 (F := Ideal) j = 0 := by
  unfold k0_pay1
  exact Ideal.ofBits_zero_f32

/-- The update read at (u, q): what the tile held there plus the sum of column q of the matrix tile. -/
theorem pay2_apply (xo : Vec Ideal S1x1024 .f32) (x : Vec Ideal S1024x1024 .f32) (u : Fin 1) (q : Fin 1024) :
    k0_pay2 (F := Ideal) xo x (ix2 u q) = xo (ix2 u q) + ∑ p : Fin 1024, x (ix2 p q) := by
  unfold k0_pay2
  refine (addf_apply _ _ (ix2 u q)).trans ?_
  refine congrArg₂ (· + ·) (congrFun (shapeCast_self xo _) (ix2 u q)) ?_
  refine (shapeCast_a_1a_apply _ _ u q).trans ?_
  refine (Ideal.multiReduction_add_single x _ reduces_S1024x1024_S1024 (.inl rfl) rfl (ix1 q)).trans ?_
  refine Finset.sum_congr rfl fun p _ => congrArg x ?_
  funext a
  match a with
  | ⟨0, _⟩ => rfl
  | ⟨1, _⟩ => rfl

/-- A sum over 4096 indices is the sum over the 4 tiles of the sums over the 1024 indices of each tile. -/
theorem sum_tiles {M : Type*} [AddCommMonoid M] (f : Fin 4096 → M) :
    ∑ k : Fin 4096, f k = ∑ a : Fin 4, ∑ b : Fin 1024, f ⟨1024 * a.val + b.val, by omega⟩ := by
  rw [← Fintype.sum_prod_type (f := fun x : Fin 4 × Fin 1024 => f ⟨1024 * x.1.val + x.2.val, by omega⟩)]
  refine (Fintype.sum_equiv (finProdFinEquiv (m := 4) (n := 1024)) _ _ fun x => ?_).symm
  refine congrArg f (Fin.ext ?_)
  show 1024 * x.1.val + x.2.val = x.2.val + 1024 * x.1.val
  omega

/-- The grid's index maps in closed form: point t is row-tile t % 4 of column-tile t / 4. -/
theorem idx_facts : ∀ t : Fin cfg0.N, win0_0.index t (0 : Fin 2) = t.val % 4 ∧ win0_0.index t (1 : Fin 2) = t.val / 4
    ∧ win0_1.index t (0 : Fin 2) = 0 ∧ win0_1.index t (1 : Fin 2) = t.val / 4 :=
  (by decide +kernel : ∀ t : Fin grid0.N, _)

variable (V : (c : Dev nD) → (b : Ref sig .tc) → Buf (Elt Ideal) ((c : Thread nD τ).loc b))

/-- The matrix as the region finds it. -/
abbrev mat (c : Dev nD) : Mat := V c main_arg0

/-- The matrix tile of point t. -/
abbrev xblk (c : Dev nD) (t : Fin cfg0.N) : Vec Ideal S1024x1024 .f32 := iblk0 V c 0 t

/-- The matrix tile of point t read at (p, q): the matrix at row 1024 (t % 4) + p, column 1024 (t / 4) + q. -/
theorem blk_apply (c : Dev nD) (t : Fin cfg0.N) (a cc : ℕ) (ha : t.val % 4 = a) (hcc : t.val / 4 = cc)
    (p q : Fin 1024) (h1 : 1024 * a + p.val < 4096) (h2 : 1024 * cc + q.val < 4096) :
    xblk V c t (ix2 p q) = mat V c (ix2 ⟨1024 * a + p.val, h1⟩ ⟨1024 * cc + q.val, h2⟩) := by
  subst ha hcc
  obtain ⟨e0, e1, -, -⟩ := idx_facts t
  unfold xblk iblk0
  rw [View.read_apply]
  show V c main_arg0 _ = V c main_arg0 _
  congr 1
  funext b
  apply Fin.ext
  match b with
  | ⟨0, _⟩ => show win0_0.index t 0 * 1024 + 1 * p.val = 1024 * (t.val % 4) + p.val; rw [e0]; omega
  | ⟨1, _⟩ => show win0_0.index t 1 * 1024 + 1 * q.val = 1024 * (t.val / 4) + q.val; rw [e1]; omega

/-- The sum of column q of the matrix tile at row-tile a of column-tile cc. -/
def tileSum (c : Dev nD) (cc a : ℕ) (hcc : cc < 4) (ha : a < 4) (q : Fin 1024) : EReal :=
  ∑ p : Fin 1024, mat V c (ix2 ⟨1024 * a + p.val, by omega⟩ ⟨1024 * cc + q.val, by omega⟩)

theorem outsAt_congr (c : Dev nD) {n m : ℕ} (e : n = m) (h : n < cfg0.N) (h' : m < cfg0.N) :
    outsAt0 (F := Ideal) V c n h = outsAt0 V c m h' := by subst e; rfl

/-- The column sums of the tile of point t, whatever way its coordinates are named. -/
theorem blk_sum (c : Dev nD) (t : Fin cfg0.N) (a cc : ℕ) (ha : t.val % 4 = a) (hcc : t.val / 4 = cc)
    (ha4 : a < 4) (hcc4 : cc < 4) (q : Fin 1024) :
    ∑ p : Fin 1024, xblk V c t (ix2 p q) = tileSum V c cc a hcc4 ha4 q :=
  Finset.sum_congr rfl fun p _ => blk_apply V c t a cc ha hcc p q _ _

/-- THE INVARIANT: after row-tile r of column-tile cc the result's tile holds, at column q, the sum over the row-tiles
    met so far of the tiles' column sums. -/
theorem acc_eq (c : Dev nD) (cc : ℕ) (hcc : cc < 4) (u : Fin 1) (q : Fin 1024) :
    ∀ (r : ℕ) (hr : r < 4) (h : 4 * cc + r < cfg0.N),
      outsAt0 (F := Ideal) V c (4 * cc + r) h (ix2 u q) = ∑ a : Fin (r + 1), tileSum V c cc a.val hcc (by omega) q
  | 0, hr, h => by
    have h0 : (⟨4 * cc + 0, h⟩ : Fin cfg0.N).val % 4 = 0 := by dsimp only; omega
    refine (congrFun (outsAt0_A V c ⟨4 * cc + 0, h⟩ h0) (ix2 u q)).trans ?_
    refine (congrFun (out_A (F := Ideal) c (grid0.coords ⟨4 * cc + 0, h⟩) (ms0_0 ⟨4 * cc + 0, h⟩) (hs0_0 ⟨4 * cc + 0, h⟩)
      (ms0_1 ⟨4 * cc + 0, h⟩) (hs0_1 ⟨4 * cc + 0, h⟩) ((hcond0_0 ⟨4 * cc + 0, h⟩).mpr h0) (iblk0 V c 0 ⟨4 * cc + 0, h⟩)) (ix2 u q)).trans ?_
    rw [pay2_apply, pay1_apply, zero_add, Fin.sum_univ_one]
    exact blk_sum V c ⟨4 * cc + 0, h⟩ 0 cc (by dsimp only; omega) (by dsimp only; omega) (by omega) hcc q
  | r + 1, hr, h => by
    have hB : ¬(⟨4 * cc + (r + 1), h⟩ : Fin cfg0.N).val % 4 = 0 := by dsimp only; omega
    refine (congrFun (outsAt0_B V c ⟨4 * cc + (r + 1), h⟩ hB) (ix2 u q)).trans ?_
    refine (congrFun (out_B (F := Ideal) c (grid0.coords ⟨4 * cc + (r + 1), h⟩) (ms0_0 ⟨4 * cc + (r + 1), h⟩) (hs0_0 ⟨4 * cc + (r + 1), h⟩)
      (ms0_1 ⟨4 * cc + (r + 1), h⟩) (hs0_1 ⟨4 * cc + (r + 1), h⟩) (fun h' => hB ((hcond0_0 ⟨4 * cc + (r + 1), h⟩).mp h')) (iblk0 V c 0 ⟨4 * cc + (r + 1), h⟩)
      (outsAt0 V c ((⟨4 * cc + (r + 1), h⟩ : Fin cfg0.N).val - 1) (Nat.lt_of_le_of_lt (Nat.sub_le _ _) h))) (ix2 u q)).trans ?_
    rw [pay2_apply]
    refine Eq.trans ?_ (Fin.sum_univ_castSucc (fun a : Fin (r + 1 + 1) => tileSum V c cc a.val hcc (by omega) q)).symm
    refine congrArg₂ (fun a b : EReal => a + b) ?_ ?_
    · rw [outsAt_congr V c (show (⟨4 * cc + (r + 1), h⟩ : Fin cfg0.N).val - 1 = 4 * cc + r from by dsimp only; omega) _ (by omega)]
      exact acc_eq c cc hcc u q r (by omega) (by omega)
    · exact blk_sum V c ⟨4 * cc + (r + 1), h⟩ (r + 1) cc (by dsimp only; omega) (by dsimp only; omega) (by omega) hcc q

/-- A write-back happens after the last row-tile of a column-tile, and writes that tile of the matrix's column sums. -/
theorem flushed_eq (c : Dev nD) (t : Fin cfg0.N) (hf : (cfg0.win 1).flush t = true) :
    (dat0 (F := Ideal) V c).flushed 1 t = ((cfg0.win 1).blk t).view.read (Elt Ideal) (colsumRow (mat V c)) := by
  have hN : t.val < 16 := lt_of_lt_of_eq t.isLt (show cfg0.N = 16 from N_0)
  have h3 : t.val % 4 = 3 := (flush0_1 t).mp hf
  obtain ⟨-, -, e0, e1⟩ := idx_facts t
  show (cfg0.win 1).cut (grid0.coords t) ((dat0 V c).after 1 t) = _
  rw [after0_1]
  refine funext fun (j : S1x1024.Idx) => ?_
  obtain ⟨u, q, rfl⟩ : ∃ (u : Fin 1) (q : Fin 1024), j = ix2 u q := ⟨j 0, j 1, eq_ix2 j⟩
  rw [View.read_apply]
  show outsAt0 V c t.val t.isLt (ix2 u q) = colsumRow (mat V c) (((cfg0.win 1).blk t).view.emb (ix2 u q))
  rw [outsAt_congr V c (show t.val = 4 * (t.val / 4) + 3 by omega) t.isLt
      (lt_of_lt_of_eq (show 4 * (t.val / 4) + 3 < 16 by omega) (show 16 = cfg0.N from N_0.symm)),
    acc_eq V c (t.val / 4) (by omega) u q 3 (by omega) _]
  unfold colsumRow
  rw [sum_tiles]
  refine Finset.sum_congr rfl fun a _ => ?_
  unfold tileSum
  refine Finset.sum_congr rfl fun p _ => congrArg (mat V c) (congrArg (ix2 _) (Fin.ext ?_))
  show 1024 * (t.val / 4) + q.val = win0_1.index t 1 * 1024 + 1 * q.val
  rw [e1]; omega

/-- An index of the result array is in point t's tile iff each coordinate is in the tile's range on its axis. -/
theorem mem_blk (t : Fin cfg0.N) (i : S1x4096.Idx) :
    i ∈ ((cfg0.win 1).blk t).view.set ↔ ∀ a : Fin 2, win0_1.index t a * S1x1024.size a ≤ (i a).val
      ∧ (i a).val < win0_1.index t a * S1x1024.size a + S1x1024.size a := by
  show i ∈ ((View.whole main_v0).slice (win0_1.rect t)).set ↔ _
  rw [View.set_slice_whole, Rect.mem_set_unit]
  exact Iff.rfl

/-- Every index of the result array is in the tile some write-back writes: column j is in column-tile j / 1024. -/
theorem cover (i : S1x4096.Idx) :
    ∃ t : Fin cfg0.N, (cfg0.win 1).flush t = true ∧ i ∈ ((cfg0.win 1).blk t).view.set := by
  have h0 : (i 0).val < 1 := (i 0).isLt
  have h1 : (i 1).val < 4096 := (i 1).isLt
  obtain ⟨t, ht⟩ : ∃ t : Fin cfg0.N, t.val = 4 * ((i 1).val / 1024) + 3 :=
    ⟨⟨4 * ((i 1).val / 1024) + 3, by rw [show cfg0.N = 16 from N_0]; omega⟩, rfl⟩
  obtain ⟨-, -, e0, e1⟩ := idx_facts t
  refine ⟨t, (flush0_1 t).mpr (by omega), ?_⟩
  rw [mem_blk]
  intro a
  match a with
  | ⟨0, _⟩ =>
    show win0_1.index t 0 * 1 ≤ (i 0).val ∧ (i 0).val < win0_1.index t 0 * 1 + 1
    rw [e0]; omega
  | ⟨1, _⟩ =>
    show win0_1.index t 1 * 1024 ≤ (i 1).val ∧ (i 1).val < win0_1.index t 1 * 1024 + 1024
    rw [e1]; omega

end R0

-- the buffer contents when the region is entered: any
variable (V : (c : Dev nD) → (b : Ref sig .tc) → Buf (Elt Ideal) ((c : Thread nD τ).loc b))

/-- The result array of region 0 at its exit: each column's sum over all 4096 rows. -/
theorem arr0 (c : Dev nD) : (dat0 (F := Ideal) V c).arrAt 1 cfg0.N = colsumRow (V c main_arg0) :=
  (dat0 (F := Ideal) V c).arrAt_eq_of_cover 1 (colsumRow (V c main_arg0)) (R0.flushed_eq V c) R0.cover

end Cert.KernelIdeal.RegVal

end
-- ==== Proof.KReg1.lean ====
/-
  The column-sum region over the second matrix: a 4 × 4 grid of 1024 × 1024 tiles, the row-tile index moving fastest;
  the [1, 1024] output tile of a column-tile is zeroed at the first row-tile and takes the tile's column sums at each.
  What the [1, 4096] result array holds at the region's exit is the column sum of the whole matrix as the region found it.
-/
import proofs.«179160_j61564061221583_1_alg».proof.Proof.Gen.KernelIdeal.Frame
import proofs.«179160_j61564061221583_1_alg».proof.Proof.Spec
import proofs.«179160_j61564061221583_1_alg».proof.Proof.LibLayout
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen Cert.BP

namespace R1

theorem hz : (![0, 0] : Fin 2 → Nat) = fun _ => 0 := funext fun a => by fin_cases a <;> rfl

section Pieces
variable {F : FTy → Type} [FloatOps F]

/-- Past the first row-tile the body leaves, in the result's tile holding `xo`, the update of `xo` by the matrix tile. -/
theorem out_B (c : Dev nD) (i : grid1.Coords) (a2 : Memref sig .tc .vmem S1024x1024 .f32) (h2 : a2.IsWhole)
    (a3 : Memref sig .tc .vmem S1x1024 .f32) (h3 : a3.IsWhole) (hc : ¬cond1_0 i)
    (x : Vec F S1024x1024 .f32) (xo : Vec F S1x1024 .f32) :
    out1_B_1 c i a2 h2 a3 h3 hc x xo = k1_pay2 xo x := by
  unfold out1_B_1
  rw [View.read_writes_eq_canon _ _ _ (cover1_B_1 c i a2 h2 a3 h3 hc x xo)]
  unfold kernelRun1_B
  dsimp only
  sl_unfold_words
  rw [View.canon_unit_zero (S := S1x1024) hz]
  simp only [View.readAt_eq_ld, h2.read_unread, h3.read_unread, View.ld_unit_zero (S := S1x1024) hz,
    View.ld_unit_zero (S := S1024x1024) hz]

/-- At the first row-tile the body stores the zero tile, reads it back, and leaves its update by the matrix tile. -/
theorem out_A (c : Dev nD) (i : grid1.Coords) (a2 : Memref sig .tc .vmem S1024x1024 .f32) (h2 : a2.IsWhole)
    (a3 : Memref sig .tc .vmem S1x1024 .f32) (h3 : a3.IsWhole) (hc : cond1_0 i)
    (x : Vec F S1024x1024 .f32) :
    out1_A_1 c i a2 h2 a3 h3 hc x = k1_pay2 (k1_pay1 (F := F)) x := by
  unfold out1_A_1
  rw [View.read_writes_eq_canon _ _ _ (cover1_A_1 c i a2 h2 a3 h3 hc x)]
  unfold kernelRun1_A
  dsimp only
  sl_unfold_words
  rw [View.canon_cons_unit_zero (S := S1x1024) hz, View.readCov_unit_zero (S := S1x1024) _ hz]
  simp only [View.readAt_eq_ld, h2.read_unread, View.ld_unit_zero (S := S1024x1024) hz]

end Pieces

/-- The zero tile, read at an index: the extended real 0. -/
theorem pay1_apply (j : S1x1024.Idx) : k1_pay1 (F := Ideal) j = 0 := by
  unfold k1_pay1
  exact Ideal.ofBits_zero_f32

/-- The update read at (u, q): what the tile held there plus the sum of column q of the matrix tile. -/
theorem pay2_apply (xo : Vec Ideal S1x1024 .f32) (x : Vec Ideal S1024x1024 .f32) (u : Fin 1) (q : Fin 1024) :
    k1_pay2 (F := Ideal) xo x (ix2 u q) = xo (ix2 u q) + ∑ p : Fin 1024, x (ix2 p q) := by
  unfold k1_pay2
  refine (addf_apply _ _ (ix2 u q)).trans ?_
  refine congrArg₂ (· + ·) (congrFun (shapeCast_self xo _) (ix2 u q)) ?_
  refine (shapeCast_a_1a_apply _ _ u q).trans ?_
  refine (Ideal.multiReduction_add_single x _ reduces_S1024x1024_S1024 (.inl rfl) rfl (ix1 q)).trans ?_
  refine Finset.sum_congr rfl fun p _ => congrArg x ?_
  funext a
  match a with
  | ⟨0, _⟩ => rfl
  | ⟨1, _⟩ => rfl

/-- A sum over 4096 indices is the sum over the 4 tiles of the sums over the 1024 indices of each tile. -/
theorem sum_tiles {M : Type*} [AddCommMonoid M] (f : Fin 4096 → M) :
    ∑ k : Fin 4096, f k = ∑ a : Fin 4, ∑ b : Fin 1024, f ⟨1024 * a.val + b.val, by omega⟩ := by
  rw [← Fintype.sum_prod_type (f := fun x : Fin 4 × Fin 1024 => f ⟨1024 * x.1.val + x.2.val, by omega⟩)]
  refine (Fintype.sum_equiv (finProdFinEquiv (m := 4) (n := 1024)) _ _ fun x => ?_).symm
  refine congrArg f (Fin.ext ?_)
  show 1024 * x.1.val + x.2.val = x.2.val + 1024 * x.1.val
  omega

/-- The grid's index maps in closed form: point t is row-tile t % 4 of column-tile t / 4. -/
theorem idx_facts : ∀ t : Fin cfg1.N, win1_0.index t (0 : Fin 2) = t.val % 4 ∧ win1_0.index t (1 : Fin 2) = t.val / 4
    ∧ win1_1.index t (0 : Fin 2) = 0 ∧ win1_1.index t (1 : Fin 2) = t.val / 4 :=
  (by decide +kernel : ∀ t : Fin grid1.N, _)

variable (V : (c : Dev nD) → (b : Ref sig .tc) → Buf (Elt Ideal) ((c : Thread nD τ).loc b))

/-- The matrix as the region finds it. -/
abbrev mat (c : Dev nD) : Mat := V c main_arg1

/-- The matrix tile of point t. -/
abbrev xblk (c : Dev nD) (t : Fin cfg1.N) : Vec Ideal S1024x1024 .f32 := iblk1 V c 0 t

/-- The matrix tile of point t read at (p, q): the matrix at row 1024 (t % 4) + p, column 1024 (t / 4) + q. -/
theorem blk_apply (c : Dev nD) (t : Fin cfg1.N) (a cc : ℕ) (ha : t.val % 4 = a) (hcc : t.val / 4 = cc)
    (p q : Fin 1024) (h1 : 1024 * a + p.val < 4096) (h2 : 1024 * cc + q.val < 4096) :
    xblk V c t (ix2 p q) = mat V c (ix2 ⟨1024 * a + p.val, h1⟩ ⟨1024 * cc + q.val, h2⟩) := by
  subst ha hcc
  obtain ⟨e0, e1, -, -⟩ := idx_facts t
  unfold xblk iblk1
  rw [View.read_apply]
  show V c main_arg1 _ = V c main_arg1 _
  congr 1
  funext b
  apply Fin.ext
  match b with
  | ⟨0, _⟩ => show win1_0.index t 0 * 1024 + 1 * p.val = 1024 * (t.val % 4) + p.val; rw [e0]; omega
  | ⟨1, _⟩ => show win1_0.index t 1 * 1024 + 1 * q.val = 1024 * (t.val / 4) + q.val; rw [e1]; omega

/-- The sum of column q of the matrix tile at row-tile a of column-tile cc. -/
def tileSum (c : Dev nD) (cc a : ℕ) (hcc : cc < 4) (ha : a < 4) (q : Fin 1024) : EReal :=
  ∑ p : Fin 1024, mat V c (ix2 ⟨1024 * a + p.val, by omega⟩ ⟨1024 * cc + q.val, by omega⟩)

theorem outsAt_congr (c : Dev nD) {n m : ℕ} (e : n = m) (h : n < cfg1.N) (h' : m < cfg1.N) :
    outsAt1 (F := Ideal) V c n h = outsAt1 V c m h' := by subst e; rfl

/-- The column sums of the tile of point t, whatever way its coordinates are named. -/
theorem blk_sum (c : Dev nD) (t : Fin cfg1.N) (a cc : ℕ) (ha : t.val % 4 = a) (hcc : t.val / 4 = cc)
    (ha4 : a < 4) (hcc4 : cc < 4) (q : Fin 1024) :
    ∑ p : Fin 1024, xblk V c t (ix2 p q) = tileSum V c cc a hcc4 ha4 q :=
  Finset.sum_congr rfl fun p _ => blk_apply V c t a cc ha hcc p q _ _

/-- THE INVARIANT: after row-tile r of column-tile cc the result's tile holds, at column q, the sum over the row-tiles
    met so far of the tiles' column sums. -/
theorem acc_eq (c : Dev nD) (cc : ℕ) (hcc : cc < 4) (u : Fin 1) (q : Fin 1024) :
    ∀ (r : ℕ) (hr : r < 4) (h : 4 * cc + r < cfg1.N),
      outsAt1 (F := Ideal) V c (4 * cc + r) h (ix2 u q) = ∑ a : Fin (r + 1), tileSum V c cc a.val hcc (by omega) q
  | 0, hr, h => by
    have h0 : (⟨4 * cc + 0, h⟩ : Fin cfg1.N).val % 4 = 0 := by dsimp only; omega
    refine (congrFun (outsAt1_A V c ⟨4 * cc + 0, h⟩ h0) (ix2 u q)).trans ?_
    refine (congrFun (out_A (F := Ideal) c (grid1.coords ⟨4 * cc + 0, h⟩) (ms1_0 ⟨4 * cc + 0, h⟩) (hs1_0 ⟨4 * cc + 0, h⟩)
      (ms1_1 ⟨4 * cc + 0, h⟩) (hs1_1 ⟨4 * cc + 0, h⟩) ((hcond1_0 ⟨4 * cc + 0, h⟩).mpr h0) (iblk1 V c 0 ⟨4 * cc + 0, h⟩)) (ix2 u q)).trans ?_
    rw [pay2_apply, pay1_apply, zero_add, Fin.sum_univ_one]
    exact blk_sum V c ⟨4 * cc + 0, h⟩ 0 cc (by dsimp only; omega) (by dsimp only; omega) (by omega) hcc q
  | r + 1, hr, h => by
    have hB : ¬(⟨4 * cc + (r + 1), h⟩ : Fin cfg1.N).val % 4 = 0 := by dsimp only; omega
    refine (congrFun (outsAt1_B V c ⟨4 * cc + (r + 1), h⟩ hB) (ix2 u q)).trans ?_
    refine (congrFun (out_B (F := Ideal) c (grid1.coords ⟨4 * cc + (r + 1), h⟩) (ms1_0 ⟨4 * cc + (r + 1), h⟩) (hs1_0 ⟨4 * cc + (r + 1), h⟩)
      (ms1_1 ⟨4 * cc + (r + 1), h⟩) (hs1_1 ⟨4 * cc + (r + 1), h⟩) (fun h' => hB ((hcond1_0 ⟨4 * cc + (r + 1), h⟩).mp h')) (iblk1 V c 0 ⟨4 * cc + (r + 1), h⟩)
      (outsAt1 V c ((⟨4 * cc + (r + 1), h⟩ : Fin cfg1.N).val - 1) (Nat.lt_of_le_of_lt (Nat.sub_le _ _) h))) (ix2 u q)).trans ?_
    rw [pay2_apply]
    refine Eq.trans ?_ (Fin.sum_univ_castSucc (fun a : Fin (r + 1 + 1) => tileSum V c cc a.val hcc (by omega) q)).symm
    refine congrArg₂ (fun a b : EReal => a + b) ?_ ?_
    · rw [outsAt_congr V c (show (⟨4 * cc + (r + 1), h⟩ : Fin cfg1.N).val - 1 = 4 * cc + r from by dsimp only; omega) _ (by omega)]
      exact acc_eq c cc hcc u q r (by omega) (by omega)
    · exact blk_sum V c ⟨4 * cc + (r + 1), h⟩ (r + 1) cc (by dsimp only; omega) (by dsimp only; omega) (by omega) hcc q

/-- A write-back happens after the last row-tile of a column-tile, and writes that tile of the matrix's column sums. -/
theorem flushed_eq (c : Dev nD) (t : Fin cfg1.N) (hf : (cfg1.win 1).flush t = true) :
    (dat1 (F := Ideal) V c).flushed 1 t = ((cfg1.win 1).blk t).view.read (Elt Ideal) (colsumRow (mat V c)) := by
  have hN : t.val < 16 := lt_of_lt_of_eq t.isLt (show cfg1.N = 16 from N_1)
  have h3 : t.val % 4 = 3 := (flush1_1 t).mp hf
  obtain ⟨-, -, e0, e1⟩ := idx_facts t
  show (cfg1.win 1).cut (grid1.coords t) ((dat1 V c).after 1 t) = _
  rw [after1_1]
  refine funext fun (j : S1x1024.Idx) => ?_
  obtain ⟨u, q, rfl⟩ : ∃ (u : Fin 1) (q : Fin 1024), j = ix2 u q := ⟨j 0, j 1, eq_ix2 j⟩
  rw [View.read_apply]
  show outsAt1 V c t.val t.isLt (ix2 u q) = colsumRow (mat V c) (((cfg1.win 1).blk t).view.emb (ix2 u q))
  rw [outsAt_congr V c (show t.val = 4 * (t.val / 4) + 3 by omega) t.isLt
      (lt_of_lt_of_eq (show 4 * (t.val / 4) + 3 < 16 by omega) (show 16 = cfg1.N from N_1.symm)),
    acc_eq V c (t.val / 4) (by omega) u q 3 (by omega) _]
  unfold colsumRow
  rw [sum_tiles]
  refine Finset.sum_congr rfl fun a _ => ?_
  unfold tileSum
  refine Finset.sum_congr rfl fun p _ => congrArg (mat V c) (congrArg (ix2 _) (Fin.ext ?_))
  show 1024 * (t.val / 4) + q.val = win1_1.index t 1 * 1024 + 1 * q.val
  rw [e1]; omega

/-- An index of the result array is in point t's tile iff each coordinate is in the tile's range on its axis. -/
theorem mem_blk (t : Fin cfg1.N) (i : S1x4096.Idx) :
    i ∈ ((cfg1.win 1).blk t).view.set ↔ ∀ a : Fin 2, win1_1.index t a * S1x1024.size a ≤ (i a).val
      ∧ (i a).val < win1_1.index t a * S1x1024.size a + S1x1024.size a := by
  show i ∈ ((View.whole main_v21).slice (win1_1.rect t)).set ↔ _
  rw [View.set_slice_whole, Rect.mem_set_unit]
  exact Iff.rfl

/-- Every index of the result array is in the tile some write-back writes: column j is in column-tile j / 1024. -/
theorem cover (i : S1x4096.Idx) :
    ∃ t : Fin cfg1.N, (cfg1.win 1).flush t = true ∧ i ∈ ((cfg1.win 1).blk t).view.set := by
  have h0 : (i 0).val < 1 := (i 0).isLt
  have h1 : (i 1).val < 4096 := (i 1).isLt
  obtain ⟨t, ht⟩ : ∃ t : Fin cfg1.N, t.val = 4 * ((i 1).val / 1024) + 3 :=
    ⟨⟨4 * ((i 1).val / 1024) + 3, by rw [show cfg1.N = 16 from N_1]; omega⟩, rfl⟩
  obtain ⟨-, -, e0, e1⟩ := idx_facts t
  refine ⟨t, (flush1_1 t).mpr (by omega), ?_⟩
  rw [mem_blk]
  intro a
  match a with
  | ⟨0, _⟩ =>
    show win1_1.index t 0 * 1 ≤ (i 0).val ∧ (i 0).val < win1_1.index t 0 * 1 + 1
    rw [e0]; omega
  | ⟨1, _⟩ =>
    show win1_1.index t 1 * 1024 ≤ (i 1).val ∧ (i 1).val < win1_1.index t 1 * 1024 + 1024
    rw [e1]; omega

end R1

-- the buffer contents when the region is entered: any
variable (V : (c : Dev nD) → (b : Ref sig .tc) → Buf (Elt Ideal) ((c : Thread nD τ).loc b))

/-- The result array of region 1 at its exit: each column's sum over all 4096 rows. -/
theorem arr1 (c : Dev nD) : (dat1 (F := Ideal) V c).arrAt 1 cfg1.N = colsumRow (V c main_arg1) :=
  (dat1 (F := Ideal) V c).arrAt_eq_of_cover 1 (colsumRow (V c main_arg1)) (R1.flushed_eq V c) R1.cover

end Cert.KernelIdeal.RegVal

end
-- ==== Proof.KReg2.lean ====
/-
  The row-sum region over the second matrix: a 4 × 4 grid of 1024 × 1024 tiles, the column-tile index moving fastest;
  the [1024, 1] output tile of a row-tile is zeroed at the first column-tile and takes the tile's row sums at each.
  What the [4096, 1] result array holds at the region's exit is the row sum of the whole matrix as the region found it.
-/
import proofs.«179160_j61564061221583_1_alg».proof.Proof.Gen.KernelIdeal.Frame
import proofs.«179160_j61564061221583_1_alg».proof.Proof.Spec
import proofs.«179160_j61564061221583_1_alg».proof.Proof.LibLayout
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.RegVal.R2

open Idealize.ShloMosaic Idealize.ShloMosaic.TcCoe Idealize.SL.Sem Idealize.ShloMosaic.ValueIdx
open Idealize.ShloMosaic.Pipeline (Dat)
open Cert.KernelIdeal Cert.KernelIdeal.Gen Cert.BP

-- the buffer contents when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry: what the output tile held there plus the sum of the matrix tile's row. -/
theorem pay2_apply (v3 : Vec Ideal S1024x1 .f32) (v5 : Vec Ideal S1024x1024 .f32) (p : Fin 1024) (u : Fin 1) :
    k2_pay2 (F := Ideal) v3 v5 (ix2 p u) = v3 (ix2 p u) + ∑ q : Fin 1024, v5 (ix2 p q) := by
  unfold k2_pay2
  dsimp only
  rw [addf_apply, shapeCast_self, Cert.LibLayout.shapeCast_a_a1_apply]
  congr 1
  refine (Ideal.multiReduction_add_single v5 0x00000000#32 reduces_S1024x1024_S1024_2 (.inl rfl) rfl (ix1 p)).trans ?_
  refine Finset.sum_congr rfl fun q _ => congrArg v5 ?_
  funext a
  match a with
  | ⟨0, _⟩ => rfl
  | ⟨1, _⟩ => rfl

/-- Away from the first column tile the body leaves, in the output tile holding `xo`, `xo` plus the row sums of the matrix tile. -/
theorem out_B (c : Dev nD) (i : grid2.Coords) (a2 : Memref sig .tc .vmem S1024x1024 .f32) (h2 : a2.IsWhole)
    (a3 : Memref sig .tc .vmem S1024x1 .f32) (h3 : a3.IsWhole) (hc : ¬cond2_0 i) (x : Vec Ideal S1024x1024 .f32) (xo : Vec Ideal S1024x1 .f32) :
    out2_B_1 (F := Ideal) c i a2 h2 a3 h3 hc x xo = k2_pay2 (F := Ideal) xo x := by
  unfold out2_B_1
  rw [View.read_writes_eq_canon _ _ _ (cover2_B_1 c i a2 h2 a3 h3 hc x xo)]
  unfold kernelRun2_B
  dsimp only
  sl_unfold_words
  rw [View.canon_unit_zero hz]
  simp only [View.readAt_eq_ld, h2.read_unread, h3.read_unread, View.ld_unit_zero (S := S1024x1024) hz, View.ld_unit_zero (S := S1024x1) hz]

/-- At the first column tile the body zeroes the output tile, reads it back, and leaves zero plus the row sums of the matrix tile. -/
theorem out_A (c : Dev nD) (i : grid2.Coords) (a2 : Memref sig .tc .vmem S1024x1024 .f32) (h2 : a2.IsWhole)
    (a3 : Memref sig .tc .vmem S1024x1 .f32) (h3 : a3.IsWhole) (hc : cond2_0 i) (x : Vec Ideal S1024x1024 .f32) :
    out2_A_1 (F := Ideal) c i a2 h2 a3 h3 hc x = k2_pay2 (F := Ideal) (k2_pay1 (F := Ideal)) x := by
  unfold out2_A_1
  rw [View.read_writes_eq_canon _ _ _ (cover2_A_1 c i a2 h2 a3 h3 hc x)]
  unfold kernelRun2_A
  dsimp only
  sl_unfold_words
  rw [View.canon_cons_unit_zero (S := S1024x1) hz, View.readCov_unit_zero (S := S1024x1) _ hz]
  simp only [View.readAt_eq_ld, h2.read_unread, View.ld_unit_zero (S := S1024x1024) hz]

/-- The zeroed tile holds zero at every entry. -/
theorem pay1_apply (p : Fin 1024) (u : Fin 1) : k2_pay1 (F := Ideal) (ix2 p u) = 0 := Ideal.ofBits_zero_f32

/-- A matrix entry at natural coordinates (zero outside the matrix, where nothing is read). -/
def ent (θ : Mat) (i j : ℕ) : EReal := if h : i < 4096 ∧ j < 4096 then θ (ix2 ⟨i, h.1⟩ ⟨j, h.2⟩) else 0

/-- The tiles' positions, decided over the grid: the matrix's tile at point t is (t / 4, t % 4), the result's is (t / 4, 0). -/
theorem idx_facts : ∀ t : Fin cfg2.N, win2_0.index t (0 : Fin 2) = t.val / 4 ∧ win2_0.index t (1 : Fin 2) = t.val % 4
    ∧ win2_1.index t (0 : Fin 2) = t.val / 4 ∧ win2_1.index t (1 : Fin 2) = 0 :=
  (by decide +kernel : ∀ t : Fin grid2.N, _)

/-- The matrix tile at point t, read at (p, q), is the matrix at (1024 (t / 4) + p, 1024 (t % 4) + q). -/
theorem xblk_apply (c : Dev nD) (t : Fin cfg2.N) (p q : Fin 1024) :
    (iblk2 V c 0 t : Vec Ideal S1024x1024 .f32) (ix2 p q)
      = ent (V c main_arg1) (1024 * (t.val / 4) + p.val) (1024 * (t.val % 4) + q.val) := by
  have hN : t.val < 16 := lt_of_lt_of_eq t.isLt (show cfg2.N = 16 from N_2)
  obtain ⟨e0, e1, -, -⟩ := idx_facts t
  unfold iblk2 ent
  rw [View.read_apply, dif_pos ⟨by omega, by omega⟩]
  show V c main_arg1 _ = V c main_arg1 _
  congr 1
  funext a
  apply Fin.ext
  match a with
  | ⟨0, _⟩ => show win2_0.index t (0 : Fin 2) * 1024 + 1 * p.val = 1024 * (t.val / 4) + p.val; rw [e0]; omega
  | ⟨1, _⟩ => show win2_0.index t (1 : Fin 2) * 1024 + 1 * q.val = 1024 * (t.val % 4) + q.val; rw [e1]; omega

/-- THE RUNNING SUM. After point n the output tile holds, at row p, the sum of row 1024 (n / 4) + p of the matrix over
    the columns of the tiles met so far in this sweep: the first 1024 (n % 4 + 1) columns. -/
theorem outsAt_apply (c : Dev nD) : ∀ (n : ℕ) (hn : n < cfg2.N) (p : Fin 1024) (u : Fin 1),
    (outsAt2 V c n hn : Vec Ideal S1024x1 .f32) (ix2 p u)
      = ∑ j ∈ Finset.range (1024 * (n % 4 + 1)), ent (V c main_arg1) (1024 * (n / 4) + p.val) j := by
  intro n
  induction n with
  | zero =>
    intro hn p u
    refine (congrFun (outsAt2_A V c ⟨0, hn⟩ rfl) (ix2 p u)).trans ?_
    rw [out_A c (grid2.coords ⟨0, hn⟩) (ms2_0 ⟨0, hn⟩) (hs2_0 ⟨0, hn⟩) (ms2_1 ⟨0, hn⟩) (hs2_1 ⟨0, hn⟩) _ (iblk2 V c 0 ⟨0, hn⟩),
      pay2_apply, pay1_apply, zero_add]
    simp only [xblk_apply]
    exact Fin.sum_univ_eq_sum_range (fun q => ent (V c main_arg1) (1024 * (0 / 4) + p.val) (1024 * (0 % 4) + q)) 1024
  | succ m ih =>
    intro hn p u
    by_cases h0 : (m + 1) % 4 = 0
    · refine (congrFun (outsAt2_A V c ⟨m + 1, hn⟩ h0) (ix2 p u)).trans ?_
      rw [out_A c (grid2.coords ⟨m + 1, hn⟩) (ms2_0 ⟨m + 1, hn⟩) (hs2_0 ⟨m + 1, hn⟩) (ms2_1 ⟨m + 1, hn⟩) (hs2_1 ⟨m + 1, hn⟩) _ (iblk2 V c 0 ⟨m + 1, hn⟩),
        pay2_apply, pay1_apply, zero_add]
      simp only [xblk_apply]
      rw [h0]
      exact Fin.sum_univ_eq_sum_range (fun q => ent (V c main_arg1) (1024 * ((m + 1) / 4) + p.val) (1024 * 0 + q)) 1024
    · refine (congrFun (outsAt2_B V c ⟨m + 1, hn⟩ h0) (ix2 p u)).trans ?_
      rw [out_B c (grid2.coords ⟨m + 1, hn⟩) (ms2_0 ⟨m + 1, hn⟩) (hs2_0 ⟨m + 1, hn⟩) (ms2_1 ⟨m + 1, hn⟩) (hs2_1 ⟨m + 1, hn⟩) _ (iblk2 V c 0 ⟨m + 1, hn⟩),
        pay2_apply]
      simp only [xblk_apply]
      show (outsAt2 V c m (Nat.lt_of_succ_lt hn) : Vec Ideal S1024x1 .f32) (ix2 p u) + _ = _
      rw [ih (Nat.lt_of_succ_lt hn) p u]
      have hd : (m + 1) / 4 = m / 4 := by omega
      have hm : (m + 1) % 4 = m % 4 + 1 := by omega
      rw [hd, hm, show 1024 * (m % 4 + 1 + 1) = 1024 * (m % 4 + 1) + 1024 from by ring, Finset.sum_range_add]
      exact congrArg (_ + ·) (Fin.sum_univ_eq_sum_range (fun q => ent (V c main_arg1) (1024 * (m / 4) + p.val) (1024 * (m % 4 + 1) + q)) 1024)

/-- A whole row of the matrix summed over its 4096 natural column positions is the row's sum. -/
theorem rowsum_ent (θ : Mat) (i : Fin 4096) : ∑ j ∈ Finset.range 4096, ent θ i.val j = ∑ j : Fin 4096, θ (ix2 i j) := by
  rw [← Fin.sum_univ_eq_sum_range (fun j => ent θ i.val j) 4096]
  refine Finset.sum_congr rfl fun j _ => ?_
  unfold ent
  rw [dif_pos ⟨i.isLt, j.isLt⟩]

/-- What a point that writes the result tile back writes is its tile of the row sums: the sweep over the row tile's
    four column tiles has just ended, and the tile's row p is row 1024 (t / 4) + p of the result. -/
theorem flushed_eq (c : Dev nD) (t : Fin cfg2.N) (hf : (cfg2.win 1).flush t = true) :
    (dat2 (F := Ideal) V c).flushed 1 t = ((cfg2.win 1).blk t).view.read (Elt Ideal) (rowsumCol (V c main_arg1)) := by
  have h3 : t.val % 4 = 3 := (flush2_1 t).mp hf
  obtain ⟨-, -, e0, -⟩ := idx_facts t
  show (cfg2.win 1).cut (grid2.coords t) ((dat2 V c).after 1 t) = _
  rw [after2_1]
  refine funext fun (j : S1024x1.Idx) => ?_
  obtain ⟨p, u, rfl⟩ : ∃ (p : Fin 1024) (u : Fin 1), j = ix2 p u := ⟨j 0, j 1, eq_ix2 j⟩
  show (outsAt2 V c t.val t.isLt : Vec Ideal S1024x1 .f32) (ix2 p u)
    = rowsumCol (V c main_arg1) (((cfg2.win 1).blk t).view.emb (ix2 p u))
  have hi : ((((cfg2.win 1).blk t).view.emb (ix2 p u)) 0 : Fin 4096).val = 1024 * (t.val / 4) + p.val := by
    show win2_1.index t (0 : Fin 2) * 1024 + 1 * p.val = _
    rw [e0]; omega
  rw [outsAt_apply V c t.val t.isLt p u, h3]
  refine Eq.trans ?_ (rowsum_ent (V c main_arg1) ((((cfg2.win 1).blk t).view.emb (ix2 p u)) 0))
  rw [hi]

/-- An entry of the result is in a point's tile iff each coordinate is in the tile's range on its axis. -/
theorem mem_blk (t : Fin cfg2.N) (i : S4096x1.Idx) :
    i ∈ ((cfg2.win 1).blk t).view.set ↔ ∀ a : Fin 2, win2_1.index t a * S1024x1.size a ≤ (i a).val ∧ (i a).val < win2_1.index t a * S1024x1.size a + S1024x1.size a := by
  show i ∈ ((View.whole main_v23).slice (win2_1.rect t)).set ↔ _
  rw [View.set_slice_whole, Rect.mem_set_unit]
  exact Iff.rfl

/-- Every entry of the result is in the tile written back at the end of its row tile's sweep. -/
theorem cover (i : S4096x1.Idx) : ∃ t : Fin cfg2.N, (cfg2.win 1).flush t = true ∧ i ∈ ((cfg2.win 1).blk t).view.set := by
  have hi0 : (i 0).val < 4096 := (i 0).isLt
  have hi1 : (i 1).val < 1 := (i 1).isLt
  have hN : cfg2.N = 16 := N_2
  obtain ⟨t, ht⟩ : ∃ t : Fin cfg2.N, t.val = 4 * ((i 0).val / 1024) + 3 := ⟨⟨4 * ((i 0).val / 1024) + 3, by rw [hN]; omega⟩, rfl⟩
  obtain ⟨-, -, e0, e1⟩ := idx_facts t
  refine ⟨t, (flush2_1 t).mpr (by omega), ?_⟩
  rw [mem_blk]
  intro a
  match a with
  | ⟨0, _⟩ =>
    show win2_1.index t (0 : Fin 2) * 1024 ≤ (i 0).val ∧ (i 0).val < win2_1.index t (0 : Fin 2) * 1024 + 1024
    rw [e0]; omega
  | ⟨1, _⟩ =>
    show win2_1.index t (1 : Fin 2) * 1 ≤ (i 1).val ∧ (i 1).val < win2_1.index t (1 : Fin 2) * 1 + 1
    rw [e1]; omega

end Cert.KernelIdeal.RegVal.R2

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen Cert.BP

-- the buffer contents when the region is entered: any
variable (V : (c : Dev nD) → (b : Ref sig .tc) → Buf (Elt Ideal) ((c : Thread nD τ).loc b))

/-- The result array of region 2 at its exit: each row's sum over all 4096 columns. -/
theorem arr2 (c : Dev nD) : (dat2 (F := Ideal) V c).arrAt 1 cfg2.N = rowsumCol (V c main_arg1) :=
  (dat2 (F := Ideal) V c).arrAt_eq_of_cover 1 (rowsumCol (V c main_arg1)) (R2.flushed_eq V c) fun i => R2.cover i

end Cert.KernelIdeal.RegVal

end
-- ==== Proof.KReg3.lean ====
/-
  The fused region over the third matrix: a 4 × 4 grid of 1024 × 1024 tiles, the column-tile index moving fastest.
  Each point writes the tile plus the column vector's tile broadcast along the rows, and adds the tile's row sums into
  a [1024, 1] accumulator that is zeroed at the first column-tile of each row-tile.
-/
import proofs.«179160_j61564061221583_1_alg».proof.Proof.Gen.KernelIdeal.Frame
import proofs.«179160_j61564061221583_1_alg».proof.Proof.Spec
import proofs.«179160_j61564061221583_1_alg».proof.Proof.LibLayout
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen Cert.BP

namespace R3
theorem hz : (![0, 0] : Fin 2 → Nat) = fun _ => 0 := funext fun a => by fin_cases a <;> rfl

/-- At a point that opens a row of tiles the matrix output's buffer is left at the one store's payload. -/
theorem outA2 (c : Dev nD) (i : grid3.Coords) (a2 : Memref sig .tc .vmem S1024x1024 .f32) (h2 : a2.IsWhole)
    (a3 : Memref sig .tc .vmem S1024x1 .f32) (h3 : a3.IsWhole) (a4 : Memref sig .tc .vmem S1024x1024 .f32) (h4 : a4.IsWhole)
    (a5 : Memref sig .tc .vmem S1024x1 .f32) (h5 : a5.IsWhole) (hc : cond3_0 i)
    (x0 : Vec Ideal S1024x1024 .f32) (x1 : Vec Ideal S1024x1 .f32) :
    out3_A_2 (F := Ideal) c i a2 h2 a3 h3 a4 h4 a5 h5 hc x0 x1 = k3_pay3 x0 x1 := by
  unfold out3_A_2
  rw [View.read_writes_eq_canon _ _ _ (cover3_A_2 c i a2 h2 a3 h3 a4 h4 a5 h5 hc x0 x1)]
  unfold kernelRun3_A
  dsimp only
  sl_unfold_words
  rw [View.canon_unit_zero hz]
  simp only [View.readAt_eq_ld, h2.read_unread, h3.read_unread, View.ld_unit_zero (S := S1024x1024) hz, View.ld_unit_zero (S := S1024x1) hz]

theorem outB2 (c : Dev nD) (i : grid3.Coords) (a2 : Memref sig .tc .vmem S1024x1024 .f32) (h2 : a2.IsWhole)
    (a3 : Memref sig .tc .vmem S1024x1 .f32) (h3 : a3.IsWhole) (a4 : Memref sig .tc .vmem S1024x1024 .f32) (h4 : a4.IsWhole)
    (a5 : Memref sig .tc .vmem S1024x1 .f32) (h5 : a5.IsWhole) (hc : ¬cond3_0 i)
    (x0 : Vec Ideal S1024x1024 .f32) (x1 : Vec Ideal S1024x1 .f32) (xo : Vec Ideal S1024x1 .f32) :
    out3_B_2 (F := Ideal) c i a2 h2 a3 h3 a4 h4 a5 h5 hc x0 x1 xo = k3_pay3 x0 x1 := by
  unfold out3_B_2
  rw [View.read_writes_eq_canon _ _ _ (cover3_B_2 c i a2 h2 a3 h3 a4 h4 a5 h5 hc x0 x1 xo)]
  unfold kernelRun3_B
  dsimp only
  sl_unfold_words
  rw [View.canon_unit_zero hz]
  simp only [View.readAt_eq_ld, h2.read_unread, h3.read_unread, View.ld_unit_zero (S := S1024x1024) hz, View.ld_unit_zero (S := S1024x1) hz]

theorem outA3 (c : Dev nD) (i : grid3.Coords) (a2 : Memref sig .tc .vmem S1024x1024 .f32) (h2 : a2.IsWhole)
    (a3 : Memref sig .tc .vmem S1024x1 .f32) (h3 : a3.IsWhole) (a4 : Memref sig .tc .vmem S1024x1024 .f32) (h4 : a4.IsWhole)
    (a5 : Memref sig .tc .vmem S1024x1 .f32) (h5 : a5.IsWhole) (hc : cond3_0 i)
    (x0 : Vec Ideal S1024x1024 .f32) (x1 : Vec Ideal S1024x1 .f32) :
    out3_A_3 (F := Ideal) c i a2 h2 a3 h3 a4 h4 a5 h5 hc x0 x1 = k3_pay2 x0 (k3_pay1 (F := Ideal)) := by
  unfold out3_A_3
  rw [View.read_writes_eq_canon _ _ _ (cover3_A_3 c i a2 h2 a3 h3 a4 h4 a5 h5 hc x0 x1)]
  unfold kernelRun3_A
  dsimp only
  sl_unfold_words
  rw [View.canon_cons_unit_zero (S := S1024x1) hz, View.readCov_unit_zero (S := S1024x1) _ hz]
  simp only [View.readAt_eq_ld, h2.read_unread, View.ld_unit_zero (S := S1024x1024) hz]

theorem outB3 (c : Dev nD) (i : grid3.Coords) (a2 : Memref sig .tc .vmem S1024x1024 .f32) (h2 : a2.IsWhole)
    (a3 : Memref sig .tc .vmem S1024x1 .f32) (h3 : a3.IsWhole) (a4 : Memref sig .tc .vmem S1024x1024 .f32) (h4 : a4.IsWhole)
    (a5 : Memref sig .tc .vmem S1024x1 .f32) (h5 : a5.IsWhole) (hc : ¬cond3_0 i)
    (x0 : Vec Ideal S1024x1024 .f32) (x1 : Vec Ideal S1024x1 .f32) (xo : Vec Ideal S1024x1 .f32) :
    out3_B_3 (F := Ideal) c i a2 h2 a3 h3 a4 h4 a5 h5 hc x0 x1 xo = k3_pay2 x0 xo := by
  unfold out3_B_3
  rw [View.read_writes_eq_canon _ _ _ (cover3_B_3 c i a2 h2 a3 h3 a4 h4 a5 h5 hc x0 x1 xo)]
  unfold kernelRun3_B
  dsimp only
  sl_unfold_words
  rw [View.canon_unit_zero hz]
  simp only [View.readAt_eq_ld, h2.read_unread, h5.read_unread, View.ld_unit_zero (S := S1024x1024) hz, View.ld_unit_zero (S := S1024x1) hz]

/-- The matrix payload at (p, q): the tile's entry plus the column tile's entry of row p. -/
theorem pay3_apply (x0 : Vec Ideal S1024x1024 .f32) (x1 : Vec Ideal S1024x1 .f32) (p q : Fin 1024) :
    k3_pay3 (F := Ideal) x0 x1 (ix2 p q) = x0 (ix2 p q) + x1 (ix2 p (0 : Fin 1)) := by
  unfold k3_pay3
  show x0 (ix2 p q) + broadcastTo S1024x1024 (shapeCast S1024x1 x1 shapeCasts_S1024x1_S1024x1) broadcasts_S1024x1_S1024x1024 (ix2 p q) = _
  refine congrArg (x0 (ix2 p q) + ·) ?_
  refine (Cert.LibLayout.broadcastTo_a1_ab_apply _ broadcasts_S1024x1_S1024x1024 p q).trans ?_
  exact congrFun (shapeCast_self x1 shapeCasts_S1024x1_S1024x1) (ix2 p (0 : Fin 1))

/-- The accumulator payload at (p, u): what the buffer held plus the tile's row sum. -/
theorem pay2_apply (x0 : Vec Ideal S1024x1024 .f32) (xo : Vec Ideal S1024x1 .f32) (p : Fin 1024) (u : Fin 1) :
    k3_pay2 (F := Ideal) x0 xo (ix2 p u) = xo (ix2 p u) + ∑ q : Fin 1024, x0 (ix2 p q) := by
  unfold k3_pay2
  show shapeCast S1024x1 xo shapeCasts_S1024x1_S1024x1 (ix2 p u)
    + shapeCast S1024x1 (multiReduction (F := Ideal) .add [1] S1024 x0 0x00000000#32 reduces_S1024x1024_S1024_2 (.inl rfl) rfl) shapeCasts_S1024_S1024x1 (ix2 p u) = _
  refine congrArg₂ (· + ·) (congrFun (shapeCast_self xo shapeCasts_S1024x1_S1024x1) (ix2 p u)) ?_
  refine (Cert.LibLayout.shapeCast_a_a1_apply _ shapeCasts_S1024_S1024x1 p u).trans ?_
  refine (Ideal.multiReduction_add_single x0 0x00000000#32 reduces_S1024x1024_S1024_2 (.inl rfl) rfl (ix1 p)).trans ?_
  refine Finset.sum_congr rfl fun q _ => congrArg x0 ?_
  funext a
  match a with
  | ⟨0, _⟩ => rfl
  | ⟨1, _⟩ => rfl

/-- The zero splat at any index. -/
theorem pay1_apply (j : S1024x1.Idx) : k3_pay1 (F := Ideal) j = 0 := Ideal.ofBits_zero_f32

/-- A sum over 4096 indices, tile by tile. -/
theorem sum_4096 {M : Type*} [AddCommMonoid M] (f : Fin 4096 → M) :
    ∑ k : Fin 4096, f k = ∑ a : Fin 4, ∑ b : Fin 1024, f ⟨1024 * a.val + b.val, by have := a.isLt; have := b.isLt; omega⟩ := by
  rw [← Fintype.sum_prod_type']
  refine (Fintype.sum_equiv (finProdFinEquiv (m := 4) (n := 1024)) _ _ fun x => ?_).symm
  exact congrArg f (Fin.ext (by show 1024 * x.1.val + x.2.val = x.2.val + 1024 * x.1.val; omega))

-- the buffer contents when the region is entered: any
variable (V : (c : Dev nD) → (b : Ref sig .tc) → Buf (Elt Ideal) ((c : Thread nD τ).loc b))

/-- The array coordinate of in-tile coordinate `p` of tile `a` (tiles of 1024 in an axis of 4096). -/
abbrev gi (a p : ℕ) : Fin 4096 := ⟨(1024 * a + p) % 4096, Nat.mod_lt _ (by decide)⟩

/-- The index maps, decided over the grid: the row-tile index is the point's quotient by 4, the column-tile index its
    remainder; the two column vectors follow the row tile only. -/
theorem idx_facts : ∀ t : Fin cfg3.N, win3_0.index t (0 : Fin 2) = t.val / 4 ∧ win3_0.index t (1 : Fin 2) = t.val % 4
    ∧ win3_1.index t (0 : Fin 2) = t.val / 4 ∧ win3_1.index t (1 : Fin 2) = 0
    ∧ win3_2.index t (0 : Fin 2) = t.val / 4 ∧ win3_2.index t (1 : Fin 2) = t.val % 4
    ∧ win3_3.index t (0 : Fin 2) = t.val / 4 ∧ win3_3.index t (1 : Fin 2) = 0 :=
  (by decide +kernel : ∀ t : Fin grid3.N, _)

/-- The matrix tile at point `t`, at (p, q): the matrix at (1024 (t / 4) + p, 1024 (t % 4) + q). -/
theorem blk0_apply (c : Dev nD) (t : Fin cfg3.N) (p q : Fin 1024) :
    (iblk3 V c 0 t : Vec Ideal S1024x1024 .f32) (ix2 p q)
      = (V c main_arg2 : S4096x4096.Idx → EReal) (ix2 (gi (t.val / 4) p.val) (gi (t.val % 4) q.val)) := by
  obtain ⟨e0, e1, -⟩ := idx_facts t
  have hN : t.val < 16 := lt_of_lt_of_eq t.isLt (show cfg3.N = 16 from N_3)
  unfold iblk3
  rw [View.read_apply]
  show V c main_arg2 _ = V c main_arg2 _
  congr 1
  funext a; apply Fin.ext
  match a with
  | ⟨0, _⟩ => show win3_0.index t (0 : Fin 2) * 1024 + 1 * p.val = (1024 * (t.val / 4) + p.val) % 4096; rw [e0]; omega
  | ⟨1, _⟩ => show win3_0.index t (1 : Fin 2) * 1024 + 1 * q.val = (1024 * (t.val % 4) + q.val) % 4096; rw [e1]; omega

/-- The column vector's tile at point `t`, at (p, u): the vector at (1024 (t / 4) + p, 0). -/
theorem blk1_apply (c : Dev nD) (t : Fin cfg3.N) (p : Fin 1024) (u : Fin 1) :
    (iblk3 V c 1 t : Vec Ideal S1024x1 .f32) (ix2 p u)
      = (V c main_v47 : S4096x1.Idx → EReal) (ix2 (gi (t.val / 4) p.val) (0 : Fin 1)) := by
  obtain ⟨-, -, e2, e3, -⟩ := idx_facts t
  have hN : t.val < 16 := lt_of_lt_of_eq t.isLt (show cfg3.N = 16 from N_3)
  unfold iblk3
  rw [View.read_apply]
  show V c main_v47 _ = V c main_v47 _
  congr 1
  funext a; apply Fin.ext
  match a with
  | ⟨0, _⟩ => show win3_1.index t (0 : Fin 2) * 1024 + 1 * p.val = (1024 * (t.val / 4) + p.val) % 4096; rw [e2]; omega
  | ⟨1, _⟩ => show win3_1.index t (1 : Fin 2) * 1 + 1 * u.val = 0; rw [e3]; omega

/-- Any matrix read through the matrix result's block at point `t`. -/
theorem rd2_apply (t : Fin cfg3.N) (G : S4096x4096.Idx → EReal) (p q : Fin 1024) :
    (((cfg3.win 2).blk t).view.read (Elt Ideal) G : Vec Ideal S1024x1024 .f32) (ix2 p q)
      = G (ix2 (gi (t.val / 4) p.val) (gi (t.val % 4) q.val)) := by
  obtain ⟨-, -, -, -, e4, e5, -⟩ := idx_facts t
  have hN : t.val < 16 := lt_of_lt_of_eq t.isLt (show cfg3.N = 16 from N_3)
  rw [View.read_apply]
  show G _ = G _
  congr 1
  funext a; apply Fin.ext
  match a with
  | ⟨0, _⟩ => show win3_2.index t (0 : Fin 2) * 1024 + 1 * p.val = (1024 * (t.val / 4) + p.val) % 4096; rw [e4]; omega
  | ⟨1, _⟩ => show win3_2.index t (1 : Fin 2) * 1024 + 1 * q.val = (1024 * (t.val % 4) + q.val) % 4096; rw [e5]; omega

/-- Any column read through the vector result's block at point `t`. -/
theorem rd3_apply (t : Fin cfg3.N) (G : S4096x1.Idx → EReal) (p : Fin 1024) (u : Fin 1) :
    (((cfg3.win 3).blk t).view.read (Elt Ideal) G : Vec Ideal S1024x1 .f32) (ix2 p u)
      = G (ix2 (gi (t.val / 4) p.val) (0 : Fin 1)) := by
  obtain ⟨-, -, -, -, -, -, e6, e7⟩ := idx_facts t
  have hN : t.val < 16 := lt_of_lt_of_eq t.isLt (show cfg3.N = 16 from N_3)
  rw [View.read_apply]
  show G _ = G _
  congr 1
  funext a; apply Fin.ext
  match a with
  | ⟨0, _⟩ => show win3_3.index t (0 : Fin 2) * 1024 + 1 * p.val = (1024 * (t.val / 4) + p.val) % 4096; rw [e6]; omega
  | ⟨1, _⟩ => show win3_3.index t (1 : Fin 2) * 1 + 1 * u.val = 0; rw [e7]; omega

/-- The sum of row `1024 r + p` of a matrix over the columns of column-tile `a`. -/
abbrev tileSum (θ : S4096x4096.Idx → EReal) (r : ℕ) (p : Fin 1024) (a : ℕ) : EReal :=
  ∑ q : Fin 1024, θ (ix2 (gi r p.val) (gi a q.val))

/-- What the matrix output's buffer holds after ANY point: the tile plus the column tile along the rows. -/
theorem out2_eq (c : Dev nD) (t : Fin cfg3.N) :
    (outsAt3 (F := Ideal) V c t.val t.isLt).1 = k3_pay3 (iblk3 V c 0 t) (iblk3 V c 1 t) := by
  by_cases h0 : t.val % 4 = 0
  · rw [outsAt3_A V c t h0]; dsimp only
    exact outA2 c (grid3.coords t) (ms3_0 t) (hs3_0 t) (ms3_1 t) (hs3_1 t) (ms3_2 t) (hs3_2 t) (ms3_3 t) (hs3_3 t) ((hcond3_0 t).mpr h0) (iblk3 V c 0 t) (iblk3 V c 1 t)
  · rw [outsAt3_B V c t h0]; dsimp only
    exact outB2 c (grid3.coords t) (ms3_0 t) (hs3_0 t) (ms3_1 t) (hs3_1 t) (ms3_2 t) (hs3_2 t) (ms3_3 t) (hs3_3 t) (fun h => h0 ((hcond3_0 t).mp h)) (iblk3 V c 0 t) (iblk3 V c 1 t) (outsAt3 (F := Ideal) V c (t.val - 1) (Nat.lt_of_le_of_lt (Nat.sub_le _ _) t.isLt)).2

/-- The accumulator after a point that opens a row of tiles: the first tile's row sums. -/
theorem stepA (c : Dev nD) (t : Fin cfg3.N) (h0 : t.val % 4 = 0) (p : Fin 1024) :
    (outsAt3 (F := Ideal) V c t.val t.isLt).2 (ix2 p (0 : Fin 1)) = tileSum (V c main_arg2) (t.val / 4) p (t.val % 4) := by
  rw [outsAt3_A V c t h0]; dsimp only
  refine (congrFun (outA3 c (grid3.coords t) (ms3_0 t) (hs3_0 t) (ms3_1 t) (hs3_1 t) (ms3_2 t) (hs3_2 t) (ms3_3 t) (hs3_3 t) ((hcond3_0 t).mpr h0) (iblk3 V c 0 t) (iblk3 V c 1 t)) (ix2 p (0 : Fin 1))).trans ?_
  rw [pay2_apply, pay1_apply, zero_add]
  exact Finset.sum_congr rfl fun q _ => blk0_apply V c t p q

/-- The accumulator after any other point: what the point before left plus this tile's row sums. -/
theorem stepB (c : Dev nD) (t : Fin cfg3.N) (h0 : ¬t.val % 4 = 0) (p : Fin 1024) :
    (outsAt3 (F := Ideal) V c t.val t.isLt).2 (ix2 p (0 : Fin 1))
      = (outsAt3 (F := Ideal) V c (t.val - 1) (Nat.lt_of_le_of_lt (Nat.sub_le _ _) t.isLt)).2 (ix2 p (0 : Fin 1)) + tileSum (V c main_arg2) (t.val / 4) p (t.val % 4) := by
  rw [outsAt3_B V c t h0]; dsimp only
  refine (congrFun (outB3 c (grid3.coords t) (ms3_0 t) (hs3_0 t) (ms3_1 t) (hs3_1 t) (ms3_2 t) (hs3_2 t) (ms3_3 t) (hs3_3 t) (fun h => h0 ((hcond3_0 t).mp h)) (iblk3 V c 0 t) (iblk3 V c 1 t) (outsAt3 (F := Ideal) V c (t.val - 1) (Nat.lt_of_le_of_lt (Nat.sub_le _ _) t.isLt)).2) (ix2 p (0 : Fin 1))).trans ?_
  rw [pay2_apply]
  exact congrArg (_ + ·) (Finset.sum_congr rfl fun q _ => blk0_apply V c t p q)

/-- THE INVARIANT: after point `n` the accumulator holds, at row `p`, the row's sums over the column tiles met so far
    in this sweep (tiles 0 … n % 4 of row-tile n / 4). -/
theorem acc_inv (c : Dev nD) : ∀ (n : ℕ) (h : n < cfg3.N) (p : Fin 1024),
    (outsAt3 (F := Ideal) V c n h).2 (ix2 p (0 : Fin 1))
      = ∑ a ∈ Finset.range (n % 4 + 1), tileSum (V c main_arg2) (n / 4) p a
  | 0, h, p => by
    refine (stepA V c ⟨0, h⟩ rfl p).trans ?_
    show tileSum (V c main_arg2) (0 / 4) p (0 % 4) = ∑ a ∈ Finset.range (0 % 4 + 1), tileSum (V c main_arg2) (0 / 4) p a
    rw [Finset.sum_range_one]
  | n + 1, h, p => by
    by_cases h0 : (n + 1) % 4 = 0
    · refine (stepA V c ⟨n + 1, h⟩ h0 p).trans ?_
      show tileSum (V c main_arg2) ((n + 1) / 4) p ((n + 1) % 4) = _
      rw [h0, Finset.sum_range_one]
    · refine (stepB V c ⟨n + 1, h⟩ h0 p).trans ?_
      show (outsAt3 (F := Ideal) V c n _).2 (ix2 p (0 : Fin 1)) + tileSum (V c main_arg2) ((n + 1) / 4) p ((n + 1) % 4) = _
      rw [acc_inv c n (Nat.lt_of_succ_lt h) p]
      have e1 : (n + 1) % 4 = n % 4 + 1 := by omega
      have e2 : (n + 1) / 4 = n / 4 := by omega
      rw [e1, e2, Finset.sum_range_succ _ (n % 4 + 1)]

/-- A whole row's sum is the sum of its four tiles' row sums. -/
theorem row_total (θ : S4096x4096.Idx → EReal) (i : Fin 4096) (r : ℕ) (p : Fin 1024) (hi : i = gi r p.val) :
    ∑ j : Fin 4096, θ (ix2 i j) = ∑ a ∈ Finset.range 4, tileSum θ r p a := by
  subst hi
  rw [sum_4096, Finset.sum_range]
  refine Finset.sum_congr rfl fun a _ => Finset.sum_congr rfl fun q _ => congrArg (fun j => θ (ix2 _ j)) (Fin.ext ?_)
  show 1024 * a.val + q.val = (1024 * a.val + q.val) % 4096
  have := a.isLt; have := q.isLt; omega

/-- WHAT POINT `t` WRITES BACK to the matrix result is block `t` of the matrix plus the column vector along the rows. -/
theorem flushed2_eq (c : Dev nD) (t : Fin cfg3.N) (hf : (cfg3.win 2).flush t = true) :
    (dat3 (F := Ideal) V c).flushed 2 t
      = ((cfg3.win 2).blk t).view.read (Elt Ideal) (plusColM (V c main_arg2) (V c main_v47)) := by
  show (cfg3.win 2).cut (grid3.coords t) ((dat3 (F := Ideal) V c).after 2 t) = _
  rw [after3_2, out2_eq]
  have main : (k3_pay3 (F := Ideal) (iblk3 V c 0 t) (iblk3 V c 1 t) : Vec Ideal S1024x1024 .f32)
      = (((cfg3.win 2).blk t).view.read (Elt Ideal) (plusColM (V c main_arg2) (V c main_v47)) : Vec Ideal S1024x1024 .f32) := by
    funext j
    obtain ⟨p, q, rfl⟩ : ∃ (p q : Fin 1024), j = ix2 p q := ⟨j 0, j 1, eq_ix2 j⟩
    rw [pay3_apply, blk0_apply, blk1_apply, rd2_apply]
    rfl
  exact main

/-- Every index of the matrix result is in the block of the point of its row tile and column tile. -/
theorem cover2 (i : S4096x4096.Idx) :
    ∃ t : Fin cfg3.N, (cfg3.win 2).flush t = true ∧ i ∈ ((cfg3.win 2).blk t).view.set := by
  have h0 : (i 0).val < 4096 := (i 0).isLt
  have h1 : (i 1).val < 4096 := (i 1).isLt
  obtain ⟨t, ht⟩ : ∃ t : Fin cfg3.N, t.val = 4 * ((i 0).val / 1024) + (i 1).val / 1024 :=
    ⟨⟨4 * ((i 0).val / 1024) + (i 1).val / 1024, by rw [show cfg3.N = 16 from N_3]; omega⟩, rfl⟩
  obtain ⟨-, -, -, -, e4, e5, -⟩ := idx_facts t
  refine ⟨t, flush3_2 t, ?_⟩
  show i ∈ ((View.whole main_v48_0).slice (win3_2.rect t)).set
  rw [View.set_slice_whole, Rect.mem_set_unit]
  intro a
  match a with
  | ⟨0, _⟩ => show win3_2.index t (0 : Fin 2) * 1024 ≤ (i 0).val ∧ (i 0).val < win3_2.index t (0 : Fin 2) * 1024 + 1024; rw [e4]; omega
  | ⟨1, _⟩ => show win3_2.index t (1 : Fin 2) * 1024 ≤ (i 1).val ∧ (i 1).val < win3_2.index t (1 : Fin 2) * 1024 + 1024; rw [e5]; omega

/-- WHAT A CLOSING POINT WRITES BACK to the vector result is its block of the matrix's row sums. -/
theorem flushed3_eq (c : Dev nD) (t : Fin cfg3.N) (hf : (cfg3.win 3).flush t = true) :
    (dat3 (F := Ideal) V c).flushed 3 t
      = ((cfg3.win 3).blk t).view.read (Elt Ideal) (rowsumCol (V c main_arg2)) := by
  have h3 : t.val % 4 = 3 := (flush3_3 t).mp hf
  show (cfg3.win 3).cut (grid3.coords t) ((dat3 (F := Ideal) V c).after 3 t) = _
  rw [after3_3]
  have main : ((outsAt3 (F := Ideal) V c t.val t.isLt).2 : Vec Ideal S1024x1 .f32)
      = (((cfg3.win 3).blk t).view.read (Elt Ideal) (rowsumCol (V c main_arg2)) : Vec Ideal S1024x1 .f32) := by
    funext j
    obtain ⟨p, u, rfl⟩ : ∃ (p : Fin 1024) (u : Fin 1), j = ix2 p u := ⟨j 0, j 1, eq_ix2 j⟩
    obtain rfl : u = 0 := Subsingleton.elim _ _
    rw [acc_inv V c t.val t.isLt p, rd3_apply, h3]
    exact (row_total (V c main_arg2) _ (t.val / 4) p rfl).symm
  exact main

/-- Every index of the vector result is in the block of the closing point of its row tile. -/
theorem cover3 (i : S4096x1.Idx) :
    ∃ t : Fin cfg3.N, (cfg3.win 3).flush t = true ∧ i ∈ ((cfg3.win 3).blk t).view.set := by
  have h0 : (i 0).val < 4096 := (i 0).isLt
  have h1 : (i 1).val < 1 := (i 1).isLt
  obtain ⟨t, ht⟩ : ∃ t : Fin cfg3.N, t.val = 4 * ((i 0).val / 1024) + 3 :=
    ⟨⟨4 * ((i 0).val / 1024) + 3, by rw [show cfg3.N = 16 from N_3]; omega⟩, rfl⟩
  obtain ⟨-, -, -, -, -, -, e6, e7⟩ := idx_facts t
  refine ⟨t, (flush3_3 t).mpr (by omega), ?_⟩
  show i ∈ ((View.whole main_v48_1).slice (win3_3.rect t)).set
  rw [View.set_slice_whole, Rect.mem_set_unit]
  intro a
  match a with
  | ⟨0, _⟩ => show win3_3.index t (0 : Fin 2) * 1024 ≤ (i 0).val ∧ (i 0).val < win3_3.index t (0 : Fin 2) * 1024 + 1024; rw [e6]; omega
  | ⟨1, _⟩ => show win3_3.index t (1 : Fin 2) * 1 ≤ (i 1).val ∧ (i 1).val < win3_3.index t (1 : Fin 2) * 1 + 1; rw [e7]; omega

end R3

-- the buffer contents when the region is entered: any
variable (V : (c : Dev nD) → (b : Ref sig .tc) → Buf (Elt Ideal) ((c : Thread nD τ).loc b))

/-- The matrix result of region 3 at its exit: the matrix plus the column vector broadcast along each row. -/
theorem arr3_2 (c : Dev nD) : (dat3 (F := Ideal) V c).arrAt 2 cfg3.N = plusColM (V c main_arg2) (V c main_v47) :=
  (dat3 (F := Ideal) V c).arrAt_eq_of_cover 2 (plusColM (V c main_arg2) (V c main_v47)) (R3.flushed2_eq V c) R3.cover2

/-- The vector result of region 3 at its exit: each row's sum of the ORIGINAL matrix over all 4096 columns. -/
theorem arr3_3 (c : Dev nD) : (dat3 (F := Ideal) V c).arrAt 3 cfg3.N = rowsumCol (V c main_arg2) :=
  (dat3 (F := Ideal) V c).arrAt_eq_of_cover 3 (rowsumCol (V c main_arg2)) (R3.flushed3_eq V c) R3.cover3

end Cert.KernelIdeal.RegVal

end
-- ==== Proof.KReg4.lean ====
/-
  The region that adds a row vector to the first matrix: a 4 × 4 grid of 1024 × 1024 tiles, each point writing the
  tile plus the row vector's tile broadcast down the columns.
-/
import proofs.«179160_j61564061221583_1_alg».proof.Proof.Gen.KernelIdeal.Frame
import proofs.«179160_j61564061221583_1_alg».proof.Proof.Spec
import proofs.«179160_j61564061221583_1_alg».proof.Proof.LibLayout
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen Cert.BP

-- the buffer contents when the region is entered: any
variable (V : (c : Dev nD) → (b : Ref sig .tc) → Buf (Elt Ideal) ((c : Thread nD τ).loc b))

namespace R4

/-- The zero offsets of a whole-buffer access, as a constant function. -/
theorem hz2 : (![0, 0] : Fin 2 → Nat) = fun _ => 0 := funext fun a => by
  match a with
  | ⟨0, _⟩ => rfl
  | ⟨1, _⟩ => rfl

/-- What the body leaves in the result's staging buffer, at row p and column q of the tile: the matrix tile's entry
    plus the row vector tile's entry of column q. -/
theorem out_apply (x0 : Vec Ideal S1024x1024 .f32) (x1 : Vec Ideal S1x1024 .f32) (p q : Fin 1024) :
    out4_2 x0 x1 (ix2 p q) = x0 (ix2 p q) + x1 (ix2 (0 : Fin 1) q) := by
  unfold out4_2
  rw [View.canon_unit_zero hz2]
  simp only [View.ld_unit_zero (S := S1024x1024) hz2, View.ld_unit_zero (S := S1x1024) hz2]
  unfold k4_pay1
  rw [shapeCast_self]
  show x0 (ix2 p q) + broadcastTo S1024x1024 x1 broadcasts_S1x1024_S1024x1024 (ix2 p q) = _
  rw [broadcastTo_1b_ab_apply]

/-- The tile indices over the grid: the matrix and the result move together, the row vector follows the column
    tile and stays in its one row; both tile indices stay below 4. -/
theorem idx_facts : ∀ t : Fin cfg4.N,
    win4_0.index t (0 : Fin 2) = win4_2.index t (0 : Fin 2) ∧ win4_0.index t (1 : Fin 2) = win4_2.index t (1 : Fin 2)
    ∧ win4_1.index t (0 : Fin 2) = 0 ∧ win4_1.index t (1 : Fin 2) = win4_2.index t (1 : Fin 2)
    ∧ win4_2.index t (0 : Fin 2) ≤ 3 ∧ win4_2.index t (1 : Fin 2) ≤ 3 :=
  (by decide +kernel : ∀ t : Fin grid4.N, _)

/-- Every tile of the 4 × 4 tiling is some point's. -/
theorem idx_onto : ∀ (q0 : Fin 4) (q1 : Fin 4), ∃ t : Fin cfg4.N, win4_2.index t = ![q0.val, q1.val] :=
  (by decide +kernel : ∀ (q0 : Fin 4) (q1 : Fin 4), ∃ t : Fin grid4.N, win4_2.index t = ![q0.val, q1.val])

/-- The matrix and the row vector as the region finds them, at their literal types. -/
abbrev mat (c : Dev nD) : Mat := V c main_arg0
abbrev row (c : Dev nD) : SR.Idx → EReal := V c main_v97

/-- What a point writes back is its tile of the matrix plus the row vector. -/
theorem flushed_eq (c : Dev nD) (t : Fin cfg4.N) :
    (dat4 (F := Ideal) V c).flushed 2 t
      = ((cfg4.win 2).blk t).view.read (Elt Ideal) (plusRowM (V c main_arg0) (V c main_v97)) := by
  show (cfg4.win 2).cut (grid4.coords t) ((dat4 V c).after 2 t) = _
  rw [after4_2]
  funext j
  obtain ⟨p, q, rfl⟩ : ∃ p q : Fin 1024, j = ix2 p q := ⟨j 0, j 1, eq_ix2 j⟩
  show out4_2 (iblk4 V c 0 t) (iblk4 V c 1 t) (ix2 p q)
    = plusRowM (V c main_arg0) (V c main_v97) (((cfg4.win 2).blk t).view.emb (ix2 p q))
  refine (out_apply (iblk4 V c 0 t) (iblk4 V c 1 t) p q).trans ?_
  obtain ⟨e0, e1, e2, e3, e4, e5⟩ := idx_facts t
  show mat V c (((cfg4.win 0).blk t).view.emb (ix2 p q)) + row V c (((cfg4.win 1).blk t).view.emb (ix2 (0 : Fin 1) q))
    = mat V c (((cfg4.win 2).blk t).view.emb (ix2 p q))
      + row V c (ix2 (0 : Fin 1) ((((cfg4.win 2).blk t).view.emb (ix2 p q)) 1))
  have h0 : ((cfg4.win 0).blk t).view.emb (ix2 p q) = ((cfg4.win 2).blk t).view.emb (ix2 p q) := by
    funext a; apply Fin.ext
    match a with
    | ⟨0, _⟩ => show win4_0.index t (0 : Fin 2) * 1024 + 1 * p.val = win4_2.index t (0 : Fin 2) * 1024 + 1 * p.val; omega
    | ⟨1, _⟩ => show win4_0.index t (1 : Fin 2) * 1024 + 1 * q.val = win4_2.index t (1 : Fin 2) * 1024 + 1 * q.val; omega
  have h1 : ((cfg4.win 1).blk t).view.emb (ix2 (0 : Fin 1) q)
      = ix2 (0 : Fin 1) ((((cfg4.win 2).blk t).view.emb (ix2 p q)) 1) := by
    funext a; apply Fin.ext
    match a with
    | ⟨0, _⟩ => show win4_1.index t (0 : Fin 2) * 1 + 1 * 0 = 0; omega
    | ⟨1, _⟩ => show win4_1.index t (1 : Fin 2) * 1024 + 1 * q.val = win4_2.index t (1 : Fin 2) * 1024 + 1 * q.val; omega
  rw [h0, h1]
  rfl

/-- An index of the array is in a point's tile iff each coordinate is in the tile's range on its axis. -/
theorem mem_blk (t : Fin cfg4.N) (i : S4096x4096.Idx) :
    i ∈ ((cfg4.win 2).blk t).view.set ↔ ∀ a : Fin 2, win4_2.index t a * S1024x1024.size a ≤ (i a).val
      ∧ (i a).val < win4_2.index t a * S1024x1024.size a + S1024x1024.size a := by
  show i ∈ ((View.whole main_v98).slice (win4_2.rect t)).set ↔ _
  rw [View.set_slice_whole, Rect.mem_set_unit]
  exact Iff.rfl

/-- Every index of the array is in some point's tile: the tile of its coordinates divided by 1024. -/
theorem cover (i : S4096x4096.Idx) :
    ∃ t : Fin cfg4.N, (cfg4.win 2).flush t = true ∧ i ∈ ((cfg4.win 2).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win4_2.index t (0 : Fin 2) = (i 0).val / 1024 := congrFun ht 0
  have q1 : win4_2.index t (1 : Fin 2) = (i 1).val / 1024 := congrFun ht 1
  refine ⟨t, flush4_2 t, ?_⟩
  rw [mem_blk]
  intro a
  match a with
  | ⟨0, _⟩ =>
    show win4_2.index t (0 : Fin 2) * 1024 ≤ (i 0).val ∧ (i 0).val < win4_2.index t (0 : Fin 2) * 1024 + 1024
    omega
  | ⟨1, _⟩ =>
    show win4_2.index t (1 : Fin 2) * 1024 ≤ (i 1).val ∧ (i 1).val < win4_2.index t (1 : Fin 2) * 1024 + 1024
    omega

end R4

/-- The result array of region 4 at its exit: the matrix plus the row vector broadcast down each column. -/
theorem arr4 (c : Dev nD) : (dat4 (F := Ideal) V c).arrAt 2 cfg4.N = plusRowM (V c main_arg0) (V c main_v97) :=
  (dat4 (F := Ideal) V c).arrAt_eq_of_cover 2 (plusRowM (V c main_arg0) (V c main_v97))
    (fun t _ => R4.flushed_eq V c t) R4.cover

end Cert.KernelIdeal.RegVal

end
-- ==== Proof.KReg5.lean ====
/-
  The region that adds a column vector and a row vector to the second matrix: a 4 × 4 grid of 1024 × 1024 tiles, each
  point writing the tile plus the column vector's tile broadcast along the rows plus the row vector's tile broadcast
  down the columns.
-/
import proofs.«179160_j61564061221583_1_alg».proof.Proof.Gen.KernelIdeal.Frame
import proofs.«179160_j61564061221583_1_alg».proof.Proof.Spec
import proofs.«179160_j61564061221583_1_alg».proof.Proof.LibLayout
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen Cert.BP

-- the buffer contents when the region is entered: any
variable (V : (c : Dev nD) → (b : Ref sig .tc) → Buf (Elt Ideal) ((c : Thread nD τ).loc b))

namespace R5

/-- The zero offsets of a whole-buffer access, as a constant function. -/
theorem hz2 : (![0, 0] : Fin 2 → Nat) = fun _ => 0 := funext fun a => by
  match a with
  | ⟨0, _⟩ => rfl
  | ⟨1, _⟩ => rfl

/-- What the body leaves in the result's staging buffer, at row p and column q of the tile: the matrix tile's entry
    plus the column vector tile's entry of row p, plus the row vector tile's entry of column q. -/
theorem out_apply (x0 : Vec Ideal S1024x1024 .f32) (x1 : Vec Ideal S1024x1 .f32) (x2 : Vec Ideal S1x1024 .f32)
    (p q : Fin 1024) :
    out5_3 x0 x1 x2 (ix2 p q) = x0 (ix2 p q) + x1 (ix2 p (0 : Fin 1)) + x2 (ix2 (0 : Fin 1) q) := by
  unfold out5_3
  rw [View.canon_unit_zero hz2]
  simp only [View.ld_unit_zero (S := S1024x1024) hz2, View.ld_unit_zero (S := S1024x1) hz2,
    View.ld_unit_zero (S := S1x1024) hz2]
  unfold k5_pay1
  rw [shapeCast_self, shapeCast_self]
  show x0 (ix2 p q) + broadcastTo S1024x1024 x1 broadcasts_S1024x1_S1024x1024 (ix2 p q)
    + broadcastTo S1024x1024 x2 broadcasts_S1x1024_S1024x1024 (ix2 p q) = _
  rw [broadcastTo_1b_ab_apply, Cert.LibLayout.broadcastTo_a1_ab_apply]

/-- The tile indices over the grid: the matrix and the result move together, the column vector follows the row
    tile and stays in its one column, the row vector follows the column tile and stays in its one row; both tile
    indices stay below 4. -/
theorem idx_facts : ∀ t : Fin cfg5.N,
    win5_0.index t (0 : Fin 2) = win5_3.index t (0 : Fin 2) ∧ win5_0.index t (1 : Fin 2) = win5_3.index t (1 : Fin 2)
    ∧ win5_1.index t (0 : Fin 2) = win5_3.index t (0 : Fin 2) ∧ win5_1.index t (1 : Fin 2) = 0
    ∧ win5_2.index t (0 : Fin 2) = 0 ∧ win5_2.index t (1 : Fin 2) = win5_3.index t (1 : Fin 2)
    ∧ win5_3.index t (0 : Fin 2) ≤ 3 ∧ win5_3.index t (1 : Fin 2) ≤ 3 :=
  (by decide +kernel : ∀ t : Fin grid5.N, _)

/-- Every tile of the 4 × 4 tiling is some point's. -/
theorem idx_onto : ∀ (q0 : Fin 4) (q1 : Fin 4), ∃ t : Fin cfg5.N, win5_3.index t = ![q0.val, q1.val] :=
  (by decide +kernel : ∀ (q0 : Fin 4) (q1 : Fin 4), ∃ t : Fin grid5.N, win5_3.index t = ![q0.val, q1.val])

/-- The matrix, the column vector and the row vector as the region finds them, at their literal types. -/
abbrev mat (c : Dev nD) : Mat := V c main_arg1
abbrev col (c : Dev nD) : SC.Idx → EReal := V c main_v99
abbrev row (c : Dev nD) : SR.Idx → EReal := V c main_v100

/-- What a point writes back is its tile of the matrix plus the column vector plus the row vector. -/
theorem flushed_eq (c : Dev nD) (t : Fin cfg5.N) :
    (dat5 (F := Ideal) V c).flushed 3 t
      = ((cfg5.win 3).blk t).view.read (Elt Ideal)
          (plusRowM (plusColM (V c main_arg1) (V c main_v99)) (V c main_v100)) := by
  show (cfg5.win 3).cut (grid5.coords t) ((dat5 V c).after 3 t) = _
  rw [after5_3]
  funext j
  obtain ⟨p, q, rfl⟩ : ∃ p q : Fin 1024, j = ix2 p q := ⟨j 0, j 1, eq_ix2 j⟩
  show out5_3 (iblk5 V c 0 t) (iblk5 V c 1 t) (iblk5 V c 2 t) (ix2 p q)
    = plusRowM (plusColM (V c main_arg1) (V c main_v99)) (V c main_v100) (((cfg5.win 3).blk t).view.emb (ix2 p q))
  refine (out_apply (iblk5 V c 0 t) (iblk5 V c 1 t) (iblk5 V c 2 t) p q).trans ?_
  obtain ⟨e0, e1, e2, e3, e4, e5, e6, e7⟩ := idx_facts t
  show mat V c (((cfg5.win 0).blk t).view.emb (ix2 p q))
      + col V c (((cfg5.win 1).blk t).view.emb (ix2 p (0 : Fin 1)))
      + row V c (((cfg5.win 2).blk t).view.emb (ix2 (0 : Fin 1) q))
    = mat V c (((cfg5.win 3).blk t).view.emb (ix2 p q))
      + col V c (ix2 ((((cfg5.win 3).blk t).view.emb (ix2 p q)) 0) (0 : Fin 1))
      + row V c (ix2 (0 : Fin 1) ((((cfg5.win 3).blk t).view.emb (ix2 p q)) 1))
  have h0 : ((cfg5.win 0).blk t).view.emb (ix2 p q) = ((cfg5.win 3).blk t).view.emb (ix2 p q) := by
    funext a; apply Fin.ext
    match a with
    | ⟨0, _⟩ => show win5_0.index t (0 : Fin 2) * 1024 + 1 * p.val = win5_3.index t (0 : Fin 2) * 1024 + 1 * p.val; omega
    | ⟨1, _⟩ => show win5_0.index t (1 : Fin 2) * 1024 + 1 * q.val = win5_3.index t (1 : Fin 2) * 1024 + 1 * q.val; omega
  have h1 : ((cfg5.win 1).blk t).view.emb (ix2 p (0 : Fin 1))
      = ix2 ((((cfg5.win 3).blk t).view.emb (ix2 p q)) 0) (0 : Fin 1) := by
    funext a; apply Fin.ext
    match a with
    | ⟨0, _⟩ => show win5_1.index t (0 : Fin 2) * 1024 + 1 * p.val = win5_3.index t (0 : Fin 2) * 1024 + 1 * p.val; omega
    | ⟨1, _⟩ => show win5_1.index t (1 : Fin 2) * 1 + 1 * 0 = 0; omega
  have h2 : ((cfg5.win 2).blk t).view.emb (ix2 (0 : Fin 1) q)
      = ix2 (0 : Fin 1) ((((cfg5.win 3).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 1024 + 1 * q.val = win5_3.index t (1 : Fin 2) * 1024 + 1 * q.val; omega
  rw [h0, h1, h2]
  rfl

/-- An index of the array is in a point's tile iff each coordinate is in the tile's range on its axis. -/
theorem mem_blk (t : Fin cfg5.N) (i : S4096x4096.Idx) :
    i ∈ ((cfg5.win 3).blk t).view.set ↔ ∀ a : Fin 2, win5_3.index t a * S1024x1024.size a ≤ (i a).val
      ∧ (i a).val < win5_3.index t a * S1024x1024.size a + S1024x1024.size a := by
  show i ∈ ((View.whole main_v101).slice (win5_3.rect t)).set ↔ _
  rw [View.set_slice_whole, Rect.mem_set_unit]
  exact Iff.rfl

/-- Every index of the array is in some point's tile: the tile of its coordinates divided by 1024. -/
theorem cover (i : S4096x4096.Idx) :
    ∃ t : Fin cfg5.N, (cfg5.win 3).flush t = true ∧ i ∈ ((cfg5.win 3).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win5_3.index t (0 : Fin 2) = (i 0).val / 1024 := congrFun ht 0
  have q1 : win5_3.index t (1 : Fin 2) = (i 1).val / 1024 := congrFun ht 1
  refine ⟨t, flush5_3 t, ?_⟩
  rw [mem_blk]
  intro a
  match a with
  | ⟨0, _⟩ =>
    show win5_3.index t (0 : Fin 2) * 1024 ≤ (i 0).val ∧ (i 0).val < win5_3.index t (0 : Fin 2) * 1024 + 1024
    omega
  | ⟨1, _⟩ =>
    show win5_3.index t (1 : Fin 2) * 1024 ≤ (i 1).val ∧ (i 1).val < win5_3.index t (1 : Fin 2) * 1024 + 1024
    omega

end R5

/-- The result array of region 5 at its exit: the matrix plus the column vector along the rows plus the row vector down the columns. -/
theorem arr5 (c : Dev nD) : (dat5 (F := Ideal) V c).arrAt 3 cfg5.N = plusRowM (plusColM (V c main_arg1) (V c main_v99)) (V c main_v100) :=
  (dat5 (F := Ideal) V c).arrAt_eq_of_cover 3 (plusRowM (plusColM (V c main_arg1) (V c main_v99)) (V c main_v100))
    (fun t _ => R5.flushed_eq V c t) R5.cover

end Cert.KernelIdeal.RegVal

end
-- ==== Proof.KHost.lean ====
/-
  The host operations between the kernel's regions, each stretch read as a function of the buffers it starts from:
  the reshapes between a vector and a one-row or one-column matrix, the totals and multiples that correct the sums,
  and the four remaps (a gather through the table's first row, a scatter-add through its second).
-/
import proofs.«179160_j61564061221583_1_alg».proof.Proof.Gen.KernelIdeal.Launch
import proofs.«179160_j61564061221583_1_alg».proof.Proof.Spec
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.BP

variable {F : FTy → Type} [FloatOps F]

/-- The remap between two cliques with this program's shape facts. -/
def remapK (proc : FVec F S4096 .f32) (op : IVec S2x4096 32) : FVec F S4096 .f32 :=
  remapG gather_S4096_S4096x1_S4096_n_0_n_n_0_1_1 scatter_S4096_S4096x1_S4096_n_0_0_1 bcast_S_S4096
    slices_S2x4096_S1x4096_1_0 slices_S2x4096_S1x4096_0_0 shapeCasts_S1x4096_S4096 bcast_S4096_S4096x1_0 proc op

/-- What the second remap gathers from: the second matrix's column sums plus the first message's total. -/
def proc1K (c1 m0 : FVec F S4096 .f32) : FVec F S4096 .f32 :=
  addf c1 (broadcastInDim S4096 ![] bcast_S_S4096 (Host.reduceAdd m0 (constant S_ .f32 0x00000000#32) reducesTo_S4096_S_d0 h_S_))
/-- What the third remap gathers from: the third matrix's row sums plus 4095 times the second message. -/
def proc2K (r2 : FVec F S4096x1 .f32) (m1 : FVec F S4096 .f32) : FVec F S4096 .f32 :=
  addf (shapeCast S4096 r2 shapeCasts_S4096x1_S4096) (mulf (broadcastInDim S4096 ![] bcast_S_S4096 (constant S_ .f32 0x457FF000#32)) m1)
/-- What the fourth remap gathers from: the second matrix's row sums plus 4095 times the first message plus the third message's total. -/
def proc3K (r1 m0 m2 : FVec F S4096 .f32) : FVec F S4096 .f32 :=
  addf (addf r1 (mulf (broadcastInDim S4096 ![] bcast_S_S4096 (constant S_ .f32 0x457FF000#32)) m0))
    (broadcastInDim S4096 ![] bcast_S_S4096 (Host.reduceAdd m2 (constant S_ .f32 0x00000000#32) reducesTo_S4096_S_d0 h_S_))

variable (W : Valuation τ sig (Elt F))

set_option maxHeartbeats 4000000 in
theorem host1_v20 : StableHlo.after hostOps1 W (Proc.devRef .tc main_v20)
    = remapK (shapeCast S4096 (W (Proc.devRef .tc main_v0)) shapeCasts_S1x4096_S4096) (W (Proc.devRef .tc main_arg3)) := by
  after_results_simp <;> rfl

theorem host2_v22 : StableHlo.after hostOps2 W (Proc.devRef .tc main_v22)
    = shapeCast S4096 (W (Proc.devRef .tc main_v21)) shapeCasts_S1x4096_S4096 := by
  after_results_simp <;> rfl

theorem host3_v24 : StableHlo.after hostOps3 W (Proc.devRef .tc main_v24)
    = shapeCast S4096 (W (Proc.devRef .tc main_v23)) shapeCasts_S4096x1_S4096 := by
  after_results_simp <;> rfl

set_option maxHeartbeats 4000000 in
theorem host3_v46 : StableHlo.after hostOps3 W (Proc.devRef .tc main_v46)
    = remapK (proc1K (W (Proc.devRef .tc main_v22)) (W (Proc.devRef .tc main_v20))) (W (Proc.devRef .tc main_arg4)) := by
  after_results_simp <;> rfl

set_option maxHeartbeats 4000000 in
theorem host3_v47 : StableHlo.after hostOps3 W (Proc.devRef .tc main_v47)
    = shapeCast S4096x1 (remapK (proc1K (W (Proc.devRef .tc main_v22)) (W (Proc.devRef .tc main_v20))) (W (Proc.devRef .tc main_arg4))) shapeCasts_S4096_S4096x1 := by
  after_results_simp <;> rfl

set_option maxHeartbeats 8000000 in
theorem host4_v71 : StableHlo.after hostOps4 W (Proc.devRef .tc main_v71)
    = remapK (proc2K (W (Proc.devRef .tc main_v48_1)) (W (Proc.devRef .tc main_v46))) (W (Proc.devRef .tc main_arg5)) := by
  after_results_simp <;> rfl

set_option maxHeartbeats 16000000 in
theorem host4_v97 : StableHlo.after hostOps4 W (Proc.devRef .tc main_v97)
    = shapeCast S1x4096 (remapK (proc3K (W (Proc.devRef .tc main_v24)) (W (Proc.devRef .tc main_v20))
        (remapK (proc2K (W (Proc.devRef .tc main_v48_1)) (W (Proc.devRef .tc main_v46))) (W (Proc.devRef .tc main_arg5))))
        (W (Proc.devRef .tc main_arg6))) shapeCasts_S4096_S1x4096 := by
  after_results_simp <;> rfl

theorem host5_v99 : StableHlo.after hostOps5 W (Proc.devRef .tc main_v99)
    = shapeCast S4096x1 (W (Proc.devRef .tc main_v20)) shapeCasts_S4096_S4096x1 := by
  after_results_simp <;> rfl

theorem host5_v100 : StableHlo.after hostOps5 W (Proc.devRef .tc main_v100)
    = shapeCast S1x4096 (W (Proc.devRef .tc main_v71)) shapeCasts_S4096_S1x4096 := by
  after_results_simp <;> rfl

end Cert.KernelIdeal.Hand

end
-- ==== Proof.KFold.lean ====
/- Which buffers keep their contents from one boundary of @main to a later one: a host stretch changes only the
  buffers it writes, a region only its output arrays. Read along the program, each argument matrix reaches the
  region that reads it as launched, and each message vector reaches its later readers as it was computed.
  The table below has one line per (buffer, segment) the value proof needs, in two shapes: a host stretch that does
  not write the buffer, a region of which the buffer is no output array (or is an input array, which the pipeline
  hands back as it found it).
-/
import proofs.«179160_j61564061221583_1_alg».proof.Proof.Gen.KernelIdeal.Frame

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

/-- A host stretch writes none of the buffers it does not name: the buffer keeps its contents across it. -/
macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg)

/-! ## One step at a time -/

theorem r0_arg0 (c : Dev nD) : W1 m ρ c (Proc.devRef .tc main_arg0) = W0 m ρ c (Proc.devRef .tc main_arg0) :=
  (W1_arr m ρ c 0).trans (((dat0 (V0 m ρ) c).arrAt_in 0 rfl _).trans (A_eq0 (V0 m ρ) c 0))
theorem h1_arg0 (c : Dev nD) : W2 m ρ c (Proc.devRef .tc main_arg0) = W1 m ρ c (Proc.devRef .tc main_arg0) := by
  host_keeps hostOps1
theorem r1_arg0 (c : Dev nD) : W3 m ρ c (Proc.devRef .tc main_arg0) = W2 m ρ c (Proc.devRef .tc main_arg0) :=
  W3_of_ne m ρ c main_arg0 (by decide)
theorem h2_arg0 (c : Dev nD) : W4 m ρ c (Proc.devRef .tc main_arg0) = W3 m ρ c (Proc.devRef .tc main_arg0) := by
  host_keeps hostOps2
theorem r2_arg0 (c : Dev nD) : W5 m ρ c (Proc.devRef .tc main_arg0) = W4 m ρ c (Proc.devRef .tc main_arg0) :=
  W5_of_ne m ρ c main_arg0 (by decide)
theorem h3_arg0 (c : Dev nD) : W6 m ρ c (Proc.devRef .tc main_arg0) = W5 m ρ c (Proc.devRef .tc main_arg0) := by
  host_keeps hostOps3
theorem r3_arg0 (c : Dev nD) : W7 m ρ c (Proc.devRef .tc main_arg0) = W6 m ρ c (Proc.devRef .tc main_arg0) :=
  W7_of_ne m ρ c main_arg0 (by decide)
theorem h4_arg0 (c : Dev nD) : W8 m ρ c (Proc.devRef .tc main_arg0) = W7 m ρ c (Proc.devRef .tc main_arg0) := by
  host_keeps hostOps4
theorem r0_arg1 (c : Dev nD) : W1 m ρ c (Proc.devRef .tc main_arg1) = W0 m ρ c (Proc.devRef .tc main_arg1) :=
  W1_of_ne m ρ c main_arg1 (by decide)
theorem h1_arg1 (c : Dev nD) : W2 m ρ c (Proc.devRef .tc main_arg1) = W1 m ρ c (Proc.devRef .tc main_arg1) := by
  host_keeps hostOps1
theorem r1_arg1 (c : Dev nD) : W3 m ρ c (Proc.devRef .tc main_arg1) = W2 m ρ c (Proc.devRef .tc main_arg1) :=
  (W3_arr m ρ c 0).trans (((dat1 (V2 m ρ) c).arrAt_in 0 rfl _).trans (A_eq1 (V2 m ρ) c 0))
theorem h2_arg1 (c : Dev nD) : W4 m ρ c (Proc.devRef .tc main_arg1) = W3 m ρ c (Proc.devRef .tc main_arg1) := by
  host_keeps hostOps2
theorem r2_arg1 (c : Dev nD) : W5 m ρ c (Proc.devRef .tc main_arg1) = W4 m ρ c (Proc.devRef .tc main_arg1) :=
  (W5_arr m ρ c 0).trans (((dat2 (V4 m ρ) c).arrAt_in 0 rfl _).trans (A_eq2 (V4 m ρ) c 0))
theorem h3_arg1 (c : Dev nD) : W6 m ρ c (Proc.devRef .tc main_arg1) = W5 m ρ c (Proc.devRef .tc main_arg1) := by
  host_keeps hostOps3
theorem r3_arg1 (c : Dev nD) : W7 m ρ c (Proc.devRef .tc main_arg1) = W6 m ρ c (Proc.devRef .tc main_arg1) :=
  W7_of_ne m ρ c main_arg1 (by decide)
theorem h4_arg1 (c : Dev nD) : W8 m ρ c (Proc.devRef .tc main_arg1) = W7 m ρ c (Proc.devRef .tc main_arg1) := by
  host_keeps hostOps4
theorem r4_arg1 (c : Dev nD) : W9 m ρ c (Proc.devRef .tc main_arg1) = W8 m ρ c (Proc.devRef .tc main_arg1) :=
  W9_of_ne m ρ c main_arg1 (by decide)
theorem h5_arg1 (c : Dev nD) : W10 m ρ c (Proc.devRef .tc main_arg1) = W9 m ρ c (Proc.devRef .tc main_arg1) := by
  host_keeps hostOps5
theorem r0_arg2 (c : Dev nD) : W1 m ρ c (Proc.devRef .tc main_arg2) = W0 m ρ c (Proc.devRef .tc main_arg2) :=
  W1_of_ne m ρ c main_arg2 (by decide)
theorem h1_arg2 (c : Dev nD) : W2 m ρ c (Proc.devRef .tc main_arg2) = W1 m ρ c (Proc.devRef .tc main_arg2) := by
  host_keeps hostOps1
theorem r1_arg2 (c : Dev nD) : W3 m ρ c (Proc.devRef .tc main_arg2) = W2 m ρ c (Proc.devRef .tc main_arg2) :=
  W3_of_ne m ρ c main_arg2 (by decide)
theorem h2_arg2 (c : Dev nD) : W4 m ρ c (Proc.devRef .tc main_arg2) = W3 m ρ c (Proc.devRef .tc main_arg2) := by
  host_keeps hostOps2
theorem r2_arg2 (c : Dev nD) : W5 m ρ c (Proc.devRef .tc main_arg2) = W4 m ρ c (Proc.devRef .tc main_arg2) :=
  W5_of_ne m ρ c main_arg2 (by decide)
theorem h3_arg2 (c : Dev nD) : W6 m ρ c (Proc.devRef .tc main_arg2) = W5 m ρ c (Proc.devRef .tc main_arg2) := by
  host_keeps hostOps3
theorem r0_arg3 (c : Dev nD) : W1 m ρ c (Proc.devRef .tc main_arg3) = W0 m ρ c (Proc.devRef .tc main_arg3) :=
  W1_of_ne m ρ c main_arg3 (by decide)
theorem r0_arg4 (c : Dev nD) : W1 m ρ c (Proc.devRef .tc main_arg4) = W0 m ρ c (Proc.devRef .tc main_arg4) :=
  W1_of_ne m ρ c main_arg4 (by decide)
theorem h1_arg4 (c : Dev nD) : W2 m ρ c (Proc.devRef .tc main_arg4) = W1 m ρ c (Proc.devRef .tc main_arg4) := by
  host_keeps hostOps1
theorem r1_arg4 (c : Dev nD) : W3 m ρ c (Proc.devRef .tc main_arg4) = W2 m ρ c (Proc.devRef .tc main_arg4) :=
  W3_of_ne m ρ c main_arg4 (by decide)
theorem h2_arg4 (c : Dev nD) : W4 m ρ c (Proc.devRef .tc main_arg4) = W3 m ρ c (Proc.devRef .tc main_arg4) := by
  host_keeps hostOps2
theorem r2_arg4 (c : Dev nD) : W5 m ρ c (Proc.devRef .tc main_arg4) = W4 m ρ c (Proc.devRef .tc main_arg4) :=
  W5_of_ne m ρ c main_arg4 (by decide)
theorem r0_arg5 (c : Dev nD) : W1 m ρ c (Proc.devRef .tc main_arg5) = W0 m ρ c (Proc.devRef .tc main_arg5) :=
  W1_of_ne m ρ c main_arg5 (by decide)
theorem h1_arg5 (c : Dev nD) : W2 m ρ c (Proc.devRef .tc main_arg5) = W1 m ρ c (Proc.devRef .tc main_arg5) := by
  host_keeps hostOps1
theorem r1_arg5 (c : Dev nD) : W3 m ρ c (Proc.devRef .tc main_arg5) = W2 m ρ c (Proc.devRef .tc main_arg5) :=
  W3_of_ne m ρ c main_arg5 (by decide)
theorem h2_arg5 (c : Dev nD) : W4 m ρ c (Proc.devRef .tc main_arg5) = W3 m ρ c (Proc.devRef .tc main_arg5) := by
  host_keeps hostOps2
theorem r2_arg5 (c : Dev nD) : W5 m ρ c (Proc.devRef .tc main_arg5) = W4 m ρ c (Proc.devRef .tc main_arg5) :=
  W5_of_ne m ρ c main_arg5 (by decide)
theorem h3_arg5 (c : Dev nD) : W6 m ρ c (Proc.devRef .tc main_arg5) = W5 m ρ c (Proc.devRef .tc main_arg5) := by
  host_keeps hostOps3
theorem r3_arg5 (c : Dev nD) : W7 m ρ c (Proc.devRef .tc main_arg5) = W6 m ρ c (Proc.devRef .tc main_arg5) :=
  W7_of_ne m ρ c main_arg5 (by decide)
theorem r0_arg6 (c : Dev nD) : W1 m ρ c (Proc.devRef .tc main_arg6) = W0 m ρ c (Proc.devRef .tc main_arg6) :=
  W1_of_ne m ρ c main_arg6 (by decide)
theorem h1_arg6 (c : Dev nD) : W2 m ρ c (Proc.devRef .tc main_arg6) = W1 m ρ c (Proc.devRef .tc main_arg6) := by
  host_keeps hostOps1
theorem r1_arg6 (c : Dev nD) : W3 m ρ c (Proc.devRef .tc main_arg6) = W2 m ρ c (Proc.devRef .tc main_arg6) :=
  W3_of_ne m ρ c main_arg6 (by decide)
theorem h2_arg6 (c : Dev nD) : W4 m ρ c (Proc.devRef .tc main_arg6) = W3 m ρ c (Proc.devRef .tc main_arg6) := by
  host_keeps hostOps2
theorem r2_arg6 (c : Dev nD) : W5 m ρ c (Proc.devRef .tc main_arg6) = W4 m ρ c (Proc.devRef .tc main_arg6) :=
  W5_of_ne m ρ c main_arg6 (by decide)
theorem h3_arg6 (c : Dev nD) : W6 m ρ c (Proc.devRef .tc main_arg6) = W5 m ρ c (Proc.devRef .tc main_arg6) := by
  host_keeps hostOps3
theorem r3_arg6 (c : Dev nD) : W7 m ρ c (Proc.devRef .tc main_arg6) = W6 m ρ c (Proc.devRef .tc main_arg6) :=
  W7_of_ne m ρ c main_arg6 (by decide)
theorem r1_v20 (c : Dev nD) : W3 m ρ c (Proc.devRef .tc main_v20) = W2 m ρ c (Proc.devRef .tc main_v20) :=
  W3_of_ne m ρ c main_v20 (by decide)
theorem h2_v20 (c : Dev nD) : W4 m ρ c (Proc.devRef .tc main_v20) = W3 m ρ c (Proc.devRef .tc main_v20) := by
  host_keeps hostOps2
theorem r2_v20 (c : Dev nD) : W5 m ρ c (Proc.devRef .tc main_v20) = W4 m ρ c (Proc.devRef .tc main_v20) :=
  W5_of_ne m ρ c main_v20 (by decide)
theorem h3_v20 (c : Dev nD) : W6 m ρ c (Proc.devRef .tc main_v20) = W5 m ρ c (Proc.devRef .tc main_v20) := by
  host_keeps hostOps3
theorem r3_v20 (c : Dev nD) : W7 m ρ c (Proc.devRef .tc main_v20) = W6 m ρ c (Proc.devRef .tc main_v20) :=
  W7_of_ne m ρ c main_v20 (by decide)
theorem h4_v20 (c : Dev nD) : W8 m ρ c (Proc.devRef .tc main_v20) = W7 m ρ c (Proc.devRef .tc main_v20) := by
  host_keeps hostOps4
theorem r4_v20 (c : Dev nD) : W9 m ρ c (Proc.devRef .tc main_v20) = W8 m ρ c (Proc.devRef .tc main_v20) :=
  W9_of_ne m ρ c main_v20 (by decide)
theorem r2_v22 (c : Dev nD) : W5 m ρ c (Proc.devRef .tc main_v22) = W4 m ρ c (Proc.devRef .tc main_v22) :=
  W5_of_ne m ρ c main_v22 (by decide)
theorem r3_v24 (c : Dev nD) : W7 m ρ c (Proc.devRef .tc main_v24) = W6 m ρ c (Proc.devRef .tc main_v24) :=
  W7_of_ne m ρ c main_v24 (by decide)
theorem r3_v46 (c : Dev nD) : W7 m ρ c (Proc.devRef .tc main_v46) = W6 m ρ c (Proc.devRef .tc main_v46) :=
  W7_of_ne m ρ c main_v46 (by decide)
theorem r4_v71 (c : Dev nD) : W9 m ρ c (Proc.devRef .tc main_v71) = W8 m ρ c (Proc.devRef .tc main_v71) :=
  W9_of_ne m ρ c main_v71 (by decide)
theorem h5_v98 (c : Dev nD) : W10 m ρ c (Proc.devRef .tc main_v98) = W9 m ρ c (Proc.devRef .tc main_v98) := by
  host_keeps hostOps5
theorem r5_v98 (c : Dev nD) : W11 m ρ c (Proc.devRef .tc main_v98) = W10 m ρ c (Proc.devRef .tc main_v98) :=
  W11_of_ne m ρ c main_v98 (by decide)
theorem h4_v48_0 (c : Dev nD) : W8 m ρ c (Proc.devRef .tc main_v48_0) = W7 m ρ c (Proc.devRef .tc main_v48_0) := by
  host_keeps hostOps4
theorem r4_v48_0 (c : Dev nD) : W9 m ρ c (Proc.devRef .tc main_v48_0) = W8 m ρ c (Proc.devRef .tc main_v48_0) :=
  W9_of_ne m ρ c main_v48_0 (by decide)
theorem h5_v48_0 (c : Dev nD) : W10 m ρ c (Proc.devRef .tc main_v48_0) = W9 m ρ c (Proc.devRef .tc main_v48_0) := by
  host_keeps hostOps5
theorem r5_v48_0 (c : Dev nD) : W11 m ρ c (Proc.devRef .tc main_v48_0) = W10 m ρ c (Proc.devRef .tc main_v48_0) :=
  W11_of_ne m ρ c main_v48_0 (by decide)

/-! ## The chains the value proof uses -/

/-- Each argument matrix reaches the regions that read it as launched. -/
theorem V2_arg1 (c : Dev nD) : W2 m ρ c (Proc.devRef .tc main_arg1) = m ((c : Thread nD τ).loc main_arg1) :=
  (h1_arg1 m ρ c).trans (r0_arg1 m ρ c)
theorem V4_arg1 (c : Dev nD) : W4 m ρ c (Proc.devRef .tc main_arg1) = m ((c : Thread nD τ).loc main_arg1) :=
  (h2_arg1 m ρ c).trans ((r1_arg1 m ρ c).trans (V2_arg1 m ρ c))
theorem V10_arg1 (c : Dev nD) : W10 m ρ c (Proc.devRef .tc main_arg1) = m ((c : Thread nD τ).loc main_arg1) :=
  (h5_arg1 m ρ c).trans ((r4_arg1 m ρ c).trans ((h4_arg1 m ρ c).trans ((r3_arg1 m ρ c).trans ((h3_arg1 m ρ c).trans ((r2_arg1 m ρ c).trans (V4_arg1 m ρ c))))))
theorem V6_arg2 (c : Dev nD) : W6 m ρ c (Proc.devRef .tc main_arg2) = m ((c : Thread nD τ).loc main_arg2) :=
  (h3_arg2 m ρ c).trans ((r2_arg2 m ρ c).trans ((h2_arg2 m ρ c).trans ((r1_arg2 m ρ c).trans ((h1_arg2 m ρ c).trans (r0_arg2 m ρ c)))))
theorem V8_arg0 (c : Dev nD) : W8 m ρ c (Proc.devRef .tc main_arg0) = m ((c : Thread nD τ).loc main_arg0) :=
  (h4_arg0 m ρ c).trans ((r3_arg0 m ρ c).trans ((h3_arg0 m ρ c).trans ((r2_arg0 m ρ c).trans ((h2_arg0 m ρ c).trans ((r1_arg0 m ρ c).trans ((h1_arg0 m ρ c).trans (r0_arg0 m ρ c)))))))
/-- Each index table reaches the host stretch that reads it as launched. -/
theorem W1_arg3 (c : Dev nD) : W1 m ρ c (Proc.devRef .tc main_arg3) = m ((c : Thread nD τ).loc main_arg3) :=
  r0_arg3 m ρ c
theorem W5_arg4 (c : Dev nD) : W5 m ρ c (Proc.devRef .tc main_arg4) = m ((c : Thread nD τ).loc main_arg4) :=
  (r2_arg4 m ρ c).trans ((h2_arg4 m ρ c).trans ((r1_arg4 m ρ c).trans ((h1_arg4 m ρ c).trans (r0_arg4 m ρ c))))
theorem W7_arg5 (c : Dev nD) : W7 m ρ c (Proc.devRef .tc main_arg5) = m ((c : Thread nD τ).loc main_arg5) :=
  (r3_arg5 m ρ c).trans ((h3_arg5 m ρ c).trans ((r2_arg5 m ρ c).trans ((h2_arg5 m ρ c).trans ((r1_arg5 m ρ c).trans ((h1_arg5 m ρ c).trans (r0_arg5 m ρ c))))))
theorem W7_arg6 (c : Dev nD) : W7 m ρ c (Proc.devRef .tc main_arg6) = m ((c : Thread nD τ).loc main_arg6) :=
  (r3_arg6 m ρ c).trans ((h3_arg6 m ρ c).trans ((r2_arg6 m ρ c).trans ((h2_arg6 m ρ c).trans ((r1_arg6 m ρ c).trans ((h1_arg6 m ρ c).trans (r0_arg6 m ρ c))))))
/-- The first message, computed before region 1, reaches its three later readers unchanged. -/
theorem W5_v20 (c : Dev nD) : W5 m ρ c (Proc.devRef .tc main_v20) = W2 m ρ c (Proc.devRef .tc main_v20) :=
  (r2_v20 m ρ c).trans ((h2_v20 m ρ c).trans (r1_v20 m ρ c))
theorem W7_v20 (c : Dev nD) : W7 m ρ c (Proc.devRef .tc main_v20) = W2 m ρ c (Proc.devRef .tc main_v20) :=
  (r3_v20 m ρ c).trans ((h3_v20 m ρ c).trans (W5_v20 m ρ c))
theorem W9_v20 (c : Dev nD) : W9 m ρ c (Proc.devRef .tc main_v20) = W2 m ρ c (Proc.devRef .tc main_v20) :=
  (r4_v20 m ρ c).trans ((h4_v20 m ρ c).trans (W7_v20 m ρ c))
/-- The two results written before the last regions are still there at the return. -/
theorem W11_v98 (c : Dev nD) : W11 m ρ c (Proc.devRef .tc main_v98) = W9 m ρ c (Proc.devRef .tc main_v98) :=
  (r5_v98 m ρ c).trans (h5_v98 m ρ c)
theorem W11_v48_0 (c : Dev nD) : W11 m ρ c (Proc.devRef .tc main_v48_0) = W7 m ρ c (Proc.devRef .tc main_v48_0) :=
  (r5_v48_0 m ρ c).trans ((h5_v48_0 m ρ c).trans ((r4_v48_0 m ρ c).trans (h4_v48_0 m ρ c)))

end Cert.KernelIdeal.Hand

end
-- ==== Proof.HostRead.lean ====
/-
  The host's operations that build the messages, read as the mathematics of Spec.lean at the ideal instance:
  a float sum over an axis is the column or row sum, a sum to a scalar broadcast back is the total in every entry,
  a vector made a column (or a row) and broadcast to the matrix adds its entry along the rows (or down the columns),
  and a reshape between a vector and a one-row or one-column matrix keeps the entries.
-/
import proofs.«179160_j61564061221583_1_alg».proof.Proof.Spec
import proofs.«179160_j61564061221583_1_alg».proof.Proof.LibLayout
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.BP

open Idealize.ShloMosaic Idealize.ShloMosaic.ValueIdx

/-! ## Reshapes between a vector and a row or a column -/

/-- A one-row matrix [1, b] cast to a vector keeps its entries: position 0 * b + c is position c. -/
private theorem cast_row_vec {α : Type} (x : SR.Idx → α) (h : SR.ShapeCasts SV) (c : Fin 4096) :
    shapeCast SV x h (ix1 c) = x (ix2 (0 : Fin 1) c) :=
  shapeCast_apply x h _ _ (by
    rw [Shape.rowMajor_val_two, Shape.rowMajor_val_one]
    show (0 : ℕ) * 4096 + c.val = c.val
    rw [Nat.zero_mul, Nat.zero_add])

/-- A one-column matrix [a, 1] cast to a vector keeps its entries: position p * 1 + 0 is position p. -/
private theorem cast_col_vec {α : Type} (x : SC.Idx → α) (h : SC.ShapeCasts SV) (p : Fin 4096) :
    shapeCast SV x h (ix1 p) = x (ix2 p (0 : Fin 1)) :=
  shapeCast_apply x h _ _ (by
    rw [Shape.rowMajor_val_two, Shape.rowMajor_val_one]
    show p.val * 1 + (0 : ℕ) = p.val
    rw [Nat.mul_one, Nat.add_zero])

/-- A vector cast to a one-row matrix [1, b] keeps its entries. -/
private theorem cast_vec_row {α : Type} (x : SV.Idx → α) (h : SV.ShapeCasts SR) (u : Fin 1) (c : Fin 4096) :
    shapeCast SR x h (ix2 u c) = x (ix1 c) :=
  shapeCast_apply x h _ _ (by
    have hu : u.val = 0 := by omega
    rw [Shape.rowMajor_val_two, Shape.rowMajor_val_one]
    show c.val = u.val * 4096 + c.val
    rw [hu, Nat.zero_mul, Nat.zero_add])

theorem cast_colsumRow (θ : Mat) (h : SR.ShapeCasts SV) : shapeCast SV (colsumRow θ) h = colsum θ := by
  funext j
  obtain ⟨c, rfl⟩ : ∃ c : Fin 4096, j = ix1 c := ⟨j 0, eq_ix1 j⟩
  rw [cast_row_vec]
  rfl
theorem cast_rowsumCol (θ : Mat) (h : SC.ShapeCasts SV) : shapeCast SV (rowsumCol θ) h = rowsum θ := by
  funext j
  obtain ⟨p, rfl⟩ : ∃ p : Fin 4096, j = ix1 p := ⟨j 0, eq_ix1 j⟩
  rw [cast_col_vec]
  rfl
theorem plusColM_cast (θ : Mat) (v : Vect) (h : SV.ShapeCasts SC) : plusColM θ (shapeCast SC v h) = plusCol θ v := by
  funext j
  obtain ⟨p, q, rfl⟩ : ∃ (p : Fin 4096) (q : Fin 4096), j = ix2 p q := ⟨j 0, j 1, eq_ix2 j⟩
  show θ (ix2 p q) + shapeCast SC v h (ix2 p (0 : Fin 1)) = θ (ix2 p q) + v (ix1 p)
  rw [Cert.LibLayout.shapeCast_a_a1_apply]
theorem plusRowM_cast (θ : Mat) (v : Vect) (h : SV.ShapeCasts SR) : plusRowM θ (shapeCast SR v h) = plusRow θ v := by
  funext j
  obtain ⟨p, q, rfl⟩ : ∃ (p : Fin 4096) (q : Fin 4096), j = ix2 p q := ⟨j 0, j 1, eq_ix2 j⟩
  show θ (ix2 p q) + shapeCast SR v h (ix2 (0 : Fin 1) q) = θ (ix2 p q) + v (ix1 q)
  rw [cast_vec_row]

/-! ## The vectors the sums-first form gathers from -/

/-- A vector's index set is its one coordinate's range … -/
private def idxEquiv1 : SV.Idx ≃ Fin 4096 where
  toFun i := i 0
  invFun a := ix1 a
  left_inv i := (eq_ix1 i).symm
  right_inv _ := rfl

/-- … so the host's sum of a vector to a scalar, from the zero word, is the total of its entries. -/
private theorem reduce_total (v : FVec Ideal SV .f32) (hr : SV.ReducesTo [0] S0) (hu : 0 < S0.numel) (j : S0.Idx) :
    Host.reduceAdd v (constant S0 .f32 0x00000000#32) hr hu j = total v := by
  simp only [Host.reduceAdd, Ideal.hostReduceAdd_def]
  rw [Ideal.hostReduceAdd_total hr (fun b => b.elim0), constant_apply, Ideal.ofBits_zero_f32, zero_add]
  -- the sum over the index set is the sum over the coordinate
  rw [← Equiv.sum_comp idxEquiv1.symm]
  rfl

theorem proc1_read (c1 v : FVec Ideal SV .f32) (hb : S0.BroadcastsInDim SV (![] : Fin 0 → Fin SV.rank))
    (hr : SV.ReducesTo [0] S0) (hu : 0 < S0.numel) :
    addf c1 (broadcastInDim SV ![] hb (Host.reduceAdd v (constant S0 .f32 0x00000000#32) hr hu))
      = fun j => c1 j + total v := by
  funext j
  rw [addf_apply, Cert.LibLayout.broadcastInDim_scalar_apply, reduce_total]
theorem proc2_read (r v : FVec Ideal SV .f32) (hb : S0.BroadcastsInDim SV (![] : Fin 0 → Fin SV.rank)) :
    addf r (mulf (broadcastInDim SV ![] hb (constant S0 .f32 0x457FF000#32)) v) = fun i => r i + k4095 * v i := by
  funext i
  rw [addf_apply, mulf_apply, Cert.LibLayout.broadcastInDim_scalar_apply, constant_apply]
  rfl
theorem proc3_read (r a b : FVec Ideal SV .f32) (hb : S0.BroadcastsInDim SV (![] : Fin 0 → Fin SV.rank))
    (hr : SV.ReducesTo [0] S0) (hu : 0 < S0.numel) :
    addf (addf r (mulf (broadcastInDim SV ![] hb (constant S0 .f32 0x457FF000#32)) a))
        (broadcastInDim SV ![] hb (Host.reduceAdd b (constant S0 .f32 0x00000000#32) hr hu))
      = fun i => r i + k4095 * a i + total b := by
  funext i
  rw [addf_apply, addf_apply, mulf_apply, Cert.LibLayout.broadcastInDim_scalar_apply,
    Cert.LibLayout.broadcastInDim_scalar_apply, constant_apply, reduce_total]
  rfl

/-! ## The additions-first form's operations -/

theorem reduce_d0 (x : FVec Ideal SM .f32) (h : SM.ReducesTo [0] SV) (hu : 0 < S0.numel) :
    Host.reduceAdd x (constant S0 .f32 0x00000000#32) h hu = colsum x := by
  funext j
  simp only [Host.reduceAdd, Ideal.hostReduceAdd_def]
  rw [Ideal.hostReduceAdd_single h (by decide), constant_apply, Ideal.ofBits_zero_f32, zero_add]
  -- the index inserted at axis 0 is (k, j)
  refine Finset.sum_congr rfl fun k _ => ?_
  exact congrArg x (funext fun a => Fin.ext (by match a with | ⟨0, _⟩ => rfl | ⟨1, _⟩ => rfl))
theorem reduce_d1 (x : FVec Ideal SM .f32) (h : SM.ReducesTo [1] SV) (hu : 0 < S0.numel) :
    Host.reduceAdd x (constant S0 .f32 0x00000000#32) h hu = rowsum x := by
  funext j
  simp only [Host.reduceAdd, Ideal.hostReduceAdd_def]
  rw [Ideal.hostReduceAdd_single h (by decide), constant_apply, Ideal.ofBits_zero_f32, zero_add]
  -- the index inserted at axis 1 is (j, k)
  refine Finset.sum_congr rfl fun k _ => ?_
  exact congrArg x (funext fun a => Fin.ext (by match a with | ⟨0, _⟩ => rfl | ⟨1, _⟩ => rfl))
theorem addf_bcastCol (θ : FVec Ideal SM .f32) (v : FVec Ideal SV .f32)
    (hbc : SV.BroadcastsInDim SC (![0] : Fin 1 → Fin SC.rank)) (hbm : SC.BroadcastsInDim SM (![0, 1] : Fin 2 → Fin SM.rank)) :
    addf θ (broadcastInDim SM ![0, 1] hbm (broadcastInDim SC ![0] hbc v)) = plusCol θ v := by
  funext j
  obtain ⟨p, q, rfl⟩ : ∃ (p : Fin 4096) (q : Fin 4096), j = ix2 p q := ⟨j 0, j 1, eq_ix2 j⟩
  rw [addf_apply, Cert.LibLayout.broadcastInDim_a1_ab_apply, Cert.LibLayout.broadcastInDim_a_a1_apply]
  rfl
theorem addf_bcastRow (θ : FVec Ideal SM .f32) (v : FVec Ideal SV .f32)
    (hbr : SV.BroadcastsInDim SR (![1] : Fin 1 → Fin SR.rank)) (hbm : SR.BroadcastsInDim SM (![0, 1] : Fin 2 → Fin SM.rank)) :
    addf θ (broadcastInDim SM ![0, 1] hbm (broadcastInDim SR ![1] hbr v)) = plusRow θ v := by
  funext j
  obtain ⟨p, q, rfl⟩ : ∃ (p : Fin 4096) (q : Fin 4096), j = ix2 p q := ⟨j 0, j 1, eq_ix2 j⟩
  rw [addf_apply, Cert.LibLayout.broadcastInDim_1b_ab_apply, Cert.LibLayout.broadcastInDim_b_1b_apply]
  rfl
theorem subf_read (a b : FVec Ideal SV .f32) : subf a b = fun i => a i - b i := by
  funext i
  rfl

end Cert.BP

end
-- ==== Proof.KVal.lean ====
/-
  The kernel's program read as the sums-first form of the schedule. Walking @main from the launch: region 0 leaves the
  first matrix's column sums, the first host stretch remaps them into the first message; regions 1 and 2 leave the
  second matrix's column and row sums; the next stretch forms the second message from the column sums plus the first
  message's total; region 3 adds that message along the rows of the third matrix and leaves the ORIGINAL third
  matrix's row sums; the next stretch forms the third message (row sums plus 4095 times the second message) and the
  fourth (the second matrix's row sums plus 4095 times the first message plus the third message's total); regions 4
  and 5 add the messages to the first and second matrices. Every buffer a later step reads has kept its contents.
-/
import proofs.«179160_j61564061221583_1_alg».proof.Proof.KReg0
import proofs.«179160_j61564061221583_1_alg».proof.Proof.KReg1
import proofs.«179160_j61564061221583_1_alg».proof.Proof.KReg2
import proofs.«179160_j61564061221583_1_alg».proof.Proof.KReg3
import proofs.«179160_j61564061221583_1_alg».proof.Proof.KReg4
import proofs.«179160_j61564061221583_1_alg».proof.Proof.KReg5
import proofs.«179160_j61564061221583_1_alg».proof.Proof.KHost
import proofs.«179160_j61564061221583_1_alg».proof.Proof.KFold
import proofs.«179160_j61564061221583_1_alg».proof.Proof.HostRead

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.KernelIdeal.RegVal Cert.BP

variable (m : (ℓ : Loc nD τ sig) → Buf (Elt Ideal) ℓ) (ρ : Dev nD → PrngReg) (c : Dev nD)

/-- The three matrices and the four remaps of this launch. -/
abbrev T0 : Mat := m ((c : Thread nD τ).loc main_arg0)
abbrev T1 : Mat := m ((c : Thread nD τ).loc main_arg1)
abbrev T2 : Mat := m ((c : Thread nD τ).loc main_arg2)
abbrev Q0 : Vect → Vect := fun v => remapK (F := Ideal) v (m ((c : Thread nD τ).loc main_arg3))
abbrev Q1 : Vect → Vect := fun v => remapK (F := Ideal) v (m ((c : Thread nD τ).loc main_arg4))
abbrev Q2 : Vect → Vect := fun v => remapK (F := Ideal) v (m ((c : Thread nD τ).loc main_arg5))
abbrev Q3 : Vect → Vect := fun v => remapK (F := Ideal) v (m ((c : Thread nD τ).loc main_arg6))

/-- Region 0's result: the first matrix's column sums, as a row. -/
theorem W1_v0 : W1 m ρ c (Proc.devRef .tc main_v0) = colsumRow (T0 m c) :=
  (W1_arr m ρ c 1).trans (arr0 (V0 m ρ) c)

/-- The first message. -/
theorem W2_v20 : W2 m ρ c (Proc.devRef .tc main_v20) = m0 (Q0 m c) (T0 m c) := by
  show StableHlo.after hostOps1 (W1 m ρ c) (Proc.devRef .tc main_v20) = _
  rw [host1_v20, W1_v0, W1_arg3, cast_colsumRow]
  rfl

/-- Region 1's result: the second matrix's column sums, as a row. -/
theorem W3_v21 : W3 m ρ c (Proc.devRef .tc main_v21) = colsumRow (T1 m c) := by
  refine ((W3_arr m ρ c 1).trans (arr1 (V2 m ρ) c)).trans ?_
  rw [show V2 m ρ c main_arg1 = m ((c : Thread nD τ).loc main_arg1) from V2_arg1 m ρ c]

theorem W4_v22 : W4 m ρ c (Proc.devRef .tc main_v22) = colsum (T1 m c) := by
  show StableHlo.after hostOps2 (W3 m ρ c) (Proc.devRef .tc main_v22) = _
  rw [host2_v22, W3_v21, cast_colsumRow]

/-- Region 2's result: the second matrix's row sums, as a column. -/
theorem W5_v23 : W5 m ρ c (Proc.devRef .tc main_v23) = rowsumCol (T1 m c) := by
  refine ((W5_arr m ρ c 1).trans (arr2 (V4 m ρ) c)).trans ?_
  rw [show V4 m ρ c main_arg1 = m ((c : Thread nD τ).loc main_arg1) from V4_arg1 m ρ c]

theorem W6_v24 : W6 m ρ c (Proc.devRef .tc main_v24) = rowsum (T1 m c) := by
  show StableHlo.after hostOps3 (W5 m ρ c) (Proc.devRef .tc main_v24) = _
  rw [host3_v24, W5_v23, cast_rowsumCol]

/-- The second message. -/
theorem W6_v46 : W6 m ρ c (Proc.devRef .tc main_v46) = m1K (Q0 m c) (Q1 m c) (T0 m c) (T1 m c) := by
  show StableHlo.after hostOps3 (W5 m ρ c) (Proc.devRef .tc main_v46) = _
  rw [host3_v46, r2_v22, W4_v22, W5_v20, W2_v20, W5_arg4]
  unfold proc1K
  rw [proc1_read]
  rfl

theorem W6_v47 : W6 m ρ c (Proc.devRef .tc main_v47)
    = shapeCast S4096x1 (m1K (Q0 m c) (Q1 m c) (T0 m c) (T1 m c)) shapeCasts_S4096_S4096x1 := by
  show StableHlo.after hostOps3 (W5 m ρ c) (Proc.devRef .tc main_v47) = _
  rw [host3_v47, r2_v22, W4_v22, W5_v20, W2_v20, W5_arg4]
  unfold proc1K
  rw [proc1_read]
  rfl

/-- Region 3's matrix result: the third result of the program. -/
theorem W7_v48_0 : W7 m ρ c (Proc.devRef .tc main_v48_0) = out2K (Q0 m c) (Q1 m c) (T0 m c) (T1 m c) (T2 m c) := by
  refine ((W7_arr m ρ c 2).trans (arr3_2 (V6 m ρ) c)).trans ?_
  rw [show V6 m ρ c main_arg2 = m ((c : Thread nD τ).loc main_arg2) from V6_arg2 m ρ c,
    show V6 m ρ c main_v47 = _ from W6_v47 m ρ c, plusColM_cast]
  rfl

/-- Region 3's vector result: the ORIGINAL third matrix's row sums, as a column. -/
theorem W7_v48_1 : W7 m ρ c (Proc.devRef .tc main_v48_1) = rowsumCol (T2 m c) := by
  refine ((W7_arr m ρ c 3).trans (arr3_3 (V6 m ρ) c)).trans ?_
  rw [show V6 m ρ c main_arg2 = m ((c : Thread nD τ).loc main_arg2) from V6_arg2 m ρ c]

/-- The third message. -/
theorem W8_v71 : W8 m ρ c (Proc.devRef .tc main_v71) = m2K (Q0 m c) (Q1 m c) (Q2 m c) (T0 m c) (T1 m c) (T2 m c) := by
  show StableHlo.after hostOps4 (W7 m ρ c) (Proc.devRef .tc main_v71) = _
  rw [host4_v71, W7_v48_1, r3_v46, W6_v46, W7_arg5]
  unfold proc2K
  rw [cast_rowsumCol, proc2_read]
  rfl

/-- The fourth message, as a row. -/
theorem W8_v97 : W8 m ρ c (Proc.devRef .tc main_v97)
    = shapeCast S1x4096 (m3K (Q0 m c) (Q1 m c) (Q2 m c) (Q3 m c) (T0 m c) (T1 m c) (T2 m c)) shapeCasts_S4096_S1x4096 := by
  show StableHlo.after hostOps4 (W7 m ρ c) (Proc.devRef .tc main_v97) = _
  rw [host4_v97, W7_v48_1, r3_v46, W6_v46, W7_arg5, W7_arg6, r3_v24, W6_v24, W7_v20, W2_v20]
  unfold proc3K proc2K
  rw [cast_rowsumCol, proc3_read, proc2_read]
  rfl

/-- Region 4's result: the first result of the program. -/
theorem W9_v98 : W9 m ρ c (Proc.devRef .tc main_v98)
    = out0K (Q0 m c) (Q1 m c) (Q2 m c) (Q3 m c) (T0 m c) (T1 m c) (T2 m c) := by
  refine ((W9_arr m ρ c 2).trans (arr4 (V8 m ρ) c)).trans ?_
  rw [show V8 m ρ c main_arg0 = m ((c : Thread nD τ).loc main_arg0) from V8_arg0 m ρ c,
    show V8 m ρ c main_v97 = _ from W8_v97 m ρ c, plusRowM_cast]
  rfl

theorem W10_v99 : W10 m ρ c (Proc.devRef .tc main_v99) = shapeCast S4096x1 (m0 (Q0 m c) (T0 m c)) shapeCasts_S4096_S4096x1 := by
  show StableHlo.after hostOps5 (W9 m ρ c) (Proc.devRef .tc main_v99) = _
  rw [host5_v99, W9_v20, W2_v20]

theorem W10_v100 : W10 m ρ c (Proc.devRef .tc main_v100)
    = shapeCast S1x4096 (m2K (Q0 m c) (Q1 m c) (Q2 m c) (T0 m c) (T1 m c) (T2 m c)) shapeCasts_S4096_S1x4096 := by
  show StableHlo.after hostOps5 (W9 m ρ c) (Proc.devRef .tc main_v100) = _
  rw [host5_v100, r4_v71, W8_v71]

/-- Region 5's result: the second result of the program. -/
theorem W11_v101 : W11 m ρ c (Proc.devRef .tc main_v101)
    = out1K (Q0 m c) (Q1 m c) (Q2 m c) (T0 m c) (T1 m c) (T2 m c) := by
  refine ((W11_arr m ρ c 3).trans (arr5 (V10 m ρ) c)).trans ?_
  rw [show V10 m ρ c main_arg1 = m ((c : Thread nD τ).loc main_arg1) from V10_arg1 m ρ c,
    show V10 m ρ c main_v99 = _ from W10_v99 m ρ c, show V10 m ρ c main_v100 = _ from W10_v100 m ρ c,
    plusColM_cast, plusRowM_cast]
  rfl

/-! ## The three results at the return -/

theorem kernel_out0 : W11 m ρ c (Proc.devRef .tc main_v98)
    = out0K (Q0 m c) (Q1 m c) (Q2 m c) (Q3 m c) (T0 m c) (T1 m c) (T2 m c) :=
  (W11_v98 m ρ c).trans (W9_v98 m ρ c)
theorem kernel_out1 : W11 m ρ c (Proc.devRef .tc main_v101)
    = out1K (Q0 m c) (Q1 m c) (Q2 m c) (T0 m c) (T1 m c) (T2 m c) := W11_v101 m ρ c
theorem kernel_out2 : W11 m ρ c (Proc.devRef .tc main_v48_0)
    = out2K (Q0 m c) (Q1 m c) (T0 m c) (T1 m c) (T2 m c) :=
  (W11_v48_0 m ρ c).trans (W7_v48_0 m ρ c)

end Cert.KernelIdeal.Hand

end
-- ==== Proof.RVal.lean ====
/-
  The reference program read as the additions-first form of the schedule: its three results are the stages the
  generated reading names, and each stage is one of Spec.lean's operations of the stages before it — a column or row
  sum, a vector broadcast into a matrix and added, a difference of vectors, a remap.
-/
import proofs.«179160_j61564061221583_1_alg».proof.Defs
import proofs.«179160_j61564061221583_1_alg».proof.Proof.Gen.ReferenceIdeal.Run
import proofs.«179160_j61564061221583_1_alg».proof.Proof.Gen.ReferenceIdeal.Read
import proofs.«179160_j61564061221583_1_alg».proof.Proof.Spec
import proofs.«179160_j61564061221583_1_alg».proof.Proof.HostRead

noncomputable section

namespace Cert.ReferenceIdeal.Hand

open Idealize.ShloMosaic Idealize.ShloMosaic.TcCoe Idealize.SL.Sem
open Cert.ReferenceIdeal Cert.ReferenceIdeal.Gen Cert.ReferenceIdeal.Read Cert.BP

/-- The remap between two cliques with this program's shape facts. -/
def remapR {F : FTy → Type} [FloatOps F] (proc : FVec F S4096 .f32) (op : IVec S2x4096 32) : FVec F S4096 .f32 :=
  remapG gather_S4096_S4096x1_S4096_n_0_n_n_0_1_1 scatter_S4096_S4096x1_S4096_n_0_0_1 bcast_S_S4096
    slices_S2x4096_S1x4096_1_0 slices_S2x4096_S1x4096_0_0 shapeCasts_S1x4096_S4096 bcast_S4096_S4096x1_0 proc op

variable (x0 x1 x2 : FVec Ideal S4096x4096 .f32) (x3 x4 x5 x6 : IVec S2x4096 32)

/-! ## The stages, one operation of the schedule each -/

/-- The first stage is the column sum of the first matrix. -/
theorem v0_eq : val_main_v0 (F := Ideal) x0 = colsum x0 := by
  unfold val_main_v0 val_main_cst
  exact Cert.BP.reduce_d0 x0 reducesTo_S4096x4096_S4096_d0 h_S_

/-- The first message: the column sums remapped by the first table. -/
theorem v19_eq : val_main_v19 (F := Ideal) x0 x3 = remapR (F := Ideal) (val_main_v0 (F := Ideal) x0) x3 := by
  unfold val_main_v19 val_main_v18 val_main_v17 val_main_v16 val_main_v15 val_main_c_3 val_main_v14 val_main_v13
    val_main_c_2 val_main_v3 val_main_v2 val_main_v12 val_main_v11 val_main_v10 val_main_v9 val_main_v8 val_main_c_1
    val_main_v7 val_main_v6 val_main_c val_main_v5 val_main_v4 val_main_v1 val_main_cst_0 remapR remapG
  rfl

/-- The second matrix with the first message added along the rows. -/
theorem v22_eq : val_main_v22 (F := Ideal) x0 x1 x3 = plusCol x1 (val_main_v19 (F := Ideal) x0 x3) := by
  unfold val_main_v22 val_main_v21 val_main_v20
  exact Cert.BP.addf_bcastCol x1 _ bcast_S4096_S4096x1_0 bcast_S4096x1_S4096x4096_0_1

/-- Its column sums. -/
theorem v23_eq : val_main_v23 (F := Ideal) x0 x1 x3 = colsum (val_main_v22 (F := Ideal) x0 x1 x3) := by
  unfold val_main_v23 val_main_cst_4
  exact Cert.BP.reduce_d0 _ reducesTo_S4096x4096_S4096_d0 h_S_

/-- The second message: those sums remapped by the second table. -/
theorem v42_eq : val_main_v42 (F := Ideal) x0 x1 x3 x4
    = remapR (F := Ideal) (val_main_v23 (F := Ideal) x0 x1 x3) x4 := by
  unfold val_main_v42 val_main_v41 val_main_v40 val_main_v39 val_main_v38 val_main_c_9 val_main_v37 val_main_v36
    val_main_c_8 val_main_v26 val_main_v25 val_main_v35 val_main_v34 val_main_v33 val_main_v32 val_main_v31 val_main_c_7
    val_main_v30 val_main_v29 val_main_c_6 val_main_v28 val_main_v27 val_main_v24 val_main_cst_5 remapR remapG
  rfl

/-- The third matrix with the second message added along the rows. -/
theorem v45_eq : val_main_v45 (F := Ideal) x0 x1 x2 x3 x4 = plusCol x2 (val_main_v42 (F := Ideal) x0 x1 x3 x4) := by
  unfold val_main_v45 val_main_v44 val_main_v43
  exact Cert.BP.addf_bcastCol x2 _ bcast_S4096_S4096x1_0 bcast_S4096x1_S4096x4096_0_1

/-- Its row sums. -/
theorem v46_eq : val_main_v46 (F := Ideal) x0 x1 x2 x3 x4 = rowsum (val_main_v45 (F := Ideal) x0 x1 x2 x3 x4) := by
  unfold val_main_v46 val_main_cst_10
  exact Cert.BP.reduce_d1 _ reducesTo_S4096x4096_S4096_d1 h_S_

/-- The row sums less the stored second message. -/
theorem v47_eq : val_main_v47 (F := Ideal) x0 x1 x2 x3 x4
    = fun i => val_main_v46 (F := Ideal) x0 x1 x2 x3 x4 i - val_main_v42 (F := Ideal) x0 x1 x3 x4 i := by
  unfold val_main_v47
  exact Cert.BP.subf_read _ _

/-- The third message: that difference remapped by the third table. -/
theorem v66_eq : val_main_v66 (F := Ideal) x0 x1 x2 x3 x4 x5
    = remapR (F := Ideal) (val_main_v47 (F := Ideal) x0 x1 x2 x3 x4) x5 := by
  unfold val_main_v66 val_main_v65 val_main_v64 val_main_v63 val_main_v62 val_main_c_15 val_main_v61 val_main_v60
    val_main_c_14 val_main_v50 val_main_v49 val_main_v59 val_main_v58 val_main_v57 val_main_v56 val_main_v55 val_main_c_13
    val_main_v54 val_main_v53 val_main_c_12 val_main_v52 val_main_v51 val_main_v48 val_main_cst_11 remapR remapG
  rfl

/-- The second result: the third message added down the columns of the second matrix plus the first message. -/
theorem v69_eq : val_main_v69 (F := Ideal) x0 x1 x2 x3 x4 x5
    = plusRow (val_main_v22 (F := Ideal) x0 x1 x3) (val_main_v66 (F := Ideal) x0 x1 x2 x3 x4 x5) := by
  unfold val_main_v69 val_main_v68 val_main_v67
  exact Cert.BP.addf_bcastRow _ _ bcast_S4096_S1x4096_1 bcast_S1x4096_S4096x4096_0_1

/-- Its row sums. -/
theorem v70_eq : val_main_v70 (F := Ideal) x0 x1 x2 x3 x4 x5
    = rowsum (val_main_v69 (F := Ideal) x0 x1 x2 x3 x4 x5) := by
  unfold val_main_v70 val_main_cst_16
  exact Cert.BP.reduce_d1 _ reducesTo_S4096x4096_S4096_d1 h_S_

/-- The row sums less the stored first message. -/
theorem v71_eq : val_main_v71 (F := Ideal) x0 x1 x2 x3 x4 x5
    = fun i => val_main_v70 (F := Ideal) x0 x1 x2 x3 x4 x5 i - val_main_v19 (F := Ideal) x0 x3 i := by
  unfold val_main_v71
  exact Cert.BP.subf_read _ _

/-- The fourth message: that difference remapped by the fourth table. -/
theorem v90_eq : val_main_v90 (F := Ideal) x0 x1 x2 x3 x4 x5 x6
    = remapR (F := Ideal) (val_main_v71 (F := Ideal) x0 x1 x2 x3 x4 x5) x6 := by
  unfold val_main_v90 val_main_v89 val_main_v88 val_main_v87 val_main_v86 val_main_c_21 val_main_v85 val_main_v84
    val_main_c_20 val_main_v74 val_main_v73 val_main_v83 val_main_v82 val_main_v81 val_main_v80 val_main_v79 val_main_c_19
    val_main_v78 val_main_v77 val_main_c_18 val_main_v76 val_main_v75 val_main_v72 val_main_cst_17 remapR remapG
  rfl

/-- The first result: the fourth message added down the columns of the first matrix. -/
theorem v93_eq : val_main_v93 (F := Ideal) x0 x1 x2 x3 x4 x5 x6
    = plusRow x0 (val_main_v90 (F := Ideal) x0 x1 x2 x3 x4 x5 x6) := by
  unfold val_main_v93 val_main_v92 val_main_v91
  exact Cert.BP.addf_bcastRow x0 _ bcast_S4096_S1x4096_1 bcast_S1x4096_S4096x4096_0_1

/-! ## The messages as the schedule names them -/

/-- The first message of the schedule. -/
theorem m0_eq : val_main_v19 (F := Ideal) x0 x3 = m0 (fun v => remapR (F := Ideal) v x3) x0 := by
  rw [v19_eq, v0_eq]
  unfold m0
  rfl

/-- The second message of the schedule. -/
theorem m1_eq : val_main_v42 (F := Ideal) x0 x1 x3 x4
    = m1R (fun v => remapR (F := Ideal) v x3) (fun v => remapR (F := Ideal) v x4) x0 x1 := by
  rw [v42_eq, v23_eq, v22_eq, m0_eq]
  unfold m1R
  rfl

/-- The third message of the schedule. -/
theorem m2_eq : val_main_v66 (F := Ideal) x0 x1 x2 x3 x4 x5
    = m2R (fun v => remapR (F := Ideal) v x3) (fun v => remapR (F := Ideal) v x4) (fun v => remapR (F := Ideal) v x5)
        x0 x1 x2 := by
  rw [v66_eq, v47_eq, v46_eq, v45_eq, m1_eq]
  unfold m2R
  rfl

/-- The fourth message of the schedule. -/
theorem m3_eq : val_main_v90 (F := Ideal) x0 x1 x2 x3 x4 x5 x6
    = m3R (fun v => remapR (F := Ideal) v x3) (fun v => remapR (F := Ideal) v x4) (fun v => remapR (F := Ideal) v x5)
        (fun v => remapR (F := Ideal) v x6) x0 x1 x2 := by
  rw [v90_eq, v71_eq, v70_eq, v69_eq, v22_eq, m0_eq, m2_eq]
  unfold m3R
  rfl

/-! ## The three results -/

/-- The third result: the third matrix plus the second message along the rows. -/
theorem ref_out2 : val_main_v45 (F := Ideal) x0 x1 x2 x3 x4
    = out2R (fun v => remapR (F := Ideal) v x3) (fun v => remapR (F := Ideal) v x4) x0 x1 x2 := by
  rw [v45_eq, m1_eq]
  unfold out2R
  rfl

/-- The second result: the second matrix plus the first message along the rows plus the third down the columns. -/
theorem ref_out1 : val_main_v69 (F := Ideal) x0 x1 x2 x3 x4 x5
    = out1R (fun v => remapR (F := Ideal) v x3) (fun v => remapR (F := Ideal) v x4) (fun v => remapR (F := Ideal) v x5) x0 x1 x2 := by
  rw [v69_eq, v22_eq, m0_eq, m2_eq]
  unfold out1R
  rfl

/-- The first result: the first matrix plus the fourth message down the columns. -/
theorem ref_out0 : val_main_v93 (F := Ideal) x0 x1 x2 x3 x4 x5 x6
    = out0R (fun v => remapR (F := Ideal) v x3) (fun v => remapR (F := Ideal) v x4) (fun v => remapR (F := Ideal) v x5) (fun v => remapR (F := Ideal) v x6) x0 x1 x2 := by
  rw [v93_eq, m3_eq]
  unfold out0R
  rfl

end Cert.ReferenceIdeal.Hand

end
-- ==== Proof.PreReal.lean ====
/-
  What the precondition says: every entry of the first two matrices is a real number. The predicate compares each
  entry's absolute value with +infinity and takes the conjunction over all entries; an extended real whose absolute
  value is below +infinity is neither infinity.
-/
import proofs.«179160_j61564061221583_1_alg».proof.Defs
import proofs.«179160_j61564061221583_1_alg».proof.Proof.Gen.Pre_finite_inputs
import proofs.«179160_j61564061221583_1_alg».proof.Proof.Spec
import Idealize.ShloMosaic.Lib.ReduceAll

noncomputable section

namespace Cert.PreReal

open Idealize.ShloMosaic Idealize.ShloMosaic.ValueIdx Cert.BP

/-- The scalar shape has one index. -/
instance : Subsingleton Cert.Pre_finite_inputs.S_.Idx := ⟨fun a b => funext fun d => d.elim0⟩

/-- The word 0x7F800000 denotes +infinity. -/
theorem inf_word : Ideal.ofBits .f32 0x7F800000#32 = ⊤ := by simp [Ideal.ofBits, Ideal.ieee]

/-- An extended real whose absolute value max x (-x) is strictly below +infinity is a real number:
    at +infinity the maximum is +infinity, at -infinity its negation is. -/
theorem isReal_of_abs_lt (x : Ideal .f32)
    (h : FloatOps.cmpf .olt (FloatOps.hostAbsf x) (FloatOps.ofBits (F := Ideal) .f32 0x7F800000#32) = 1#1) :
    IsReal x := by
  change Ideal.cmp .olt (max (x : EReal) (-(x : EReal))) (Ideal.ofBits .f32 0x7F800000#32) = 1#1 at h
  rw [inf_word] at h
  unfold Ideal.cmp at h
  induction x using EReal.rec with
  | bot => simp at h
  | coe r => exact ⟨r, rfl⟩
  | top => simp at h

/-- Under the precondition every entry of the first and of the second matrix is a real number. -/
theorem real_of_pre (a0 a1 a2 : FVec Ideal Cert.Pre_finite_inputs.S4096x4096 .f32)
    (a3 a4 a5 a6 : IVec Cert.Pre_finite_inputs.S2x4096 32)
    (h : Cert.Pre_finite_inputs.fn (F := Ideal) a0 a1 a2 a3 a4 a5 a6 = fun _ => 1#1) :
    (∀ p, IsReal (a0 p)) ∧ (∀ p, IsReal (a1 p)) := by
  -- the predicate's one value is the conjunction of the three matrices' "all entries finite"
  have h0 := congrFun h ValueIdx.ix0
  dsimp only [Cert.Pre_finite_inputs.fn] at h0
  obtain ⟨h01, _⟩ := IntOp.andi_eq_one.1 h0
  obtain ⟨hA, hB⟩ := IntOp.andi_eq_one.1 h01
  refine ⟨fun p => ?_, fun p => ?_⟩
  · exact isReal_of_abs_lt _ (Host.reduce_andi_all _ _ _ _ _ hA p)
  · exact isReal_of_abs_lt _ (Host.reduce_andi_all _ _ _ _ _ hB p)

end Cert.PreReal

end
-- ==== Proof.lean ====
/-
  The certificate of the belief-propagation kernel on three cliques of domain size 4096 against its jnp reference.

  Both programs pass four messages between the cliques. Each message is a remap (a gather through the first row of an
  index table, then a scatter-add through its second row) of a vector of sums. The reference adds a message into its
  matrix first and sums the matrix afterwards, subtracting the stored forward message on the way back; the kernel sums
  each matrix once, in tiled regions, and corrects the sums on small vectors: the column sums of "second matrix plus
  the first message along the rows" are the second matrix's column sums plus the message's total, and the row sums of a
  matrix with a message added along its rows, less the message, are the matrix's row sums plus 4095 times the message.
  The last identity cancels a value against itself, which over the extended reals holds for real numbers only: the
  precondition makes the matrices real, and sums and remaps of real vectors are real. The two programs then apply the
  same remaps to the same vectors and add the same messages to the same matrices.
-/
import proofs.«179160_j61564061221583_1_alg».proof.Defs
import proofs.«179160_j61564061221583_1_alg».proof.Proof.Gen.Kernel
import proofs.«179160_j61564061221583_1_alg».proof.Proof.Gen.Kernel.Skeleton
import proofs.«179160_j61564061221583_1_alg».proof.Proof.Gen.Kernel.Launch
import proofs.«179160_j61564061221583_1_alg».proof.Proof.Gen.Kernel.Points
import proofs.«179160_j61564061221583_1_alg».proof.Proof.Gen.Kernel.Frame
import proofs.«179160_j61564061221583_1_alg».proof.Proof.Gen.KernelIdeal
import proofs.«179160_j61564061221583_1_alg».proof.Proof.Gen.KernelIdeal.Skeleton
import proofs.«179160_j61564061221583_1_alg».proof.Proof.Gen.KernelIdeal.Launch
import proofs.«179160_j61564061221583_1_alg».proof.Proof.Gen.KernelIdeal.Points
import proofs.«179160_j61564061221583_1_alg».proof.Proof.Gen.KernelIdeal.Frame
import proofs.«179160_j61564061221583_1_alg».proof.Proof.Gen.ReferenceIdeal
import proofs.«179160_j61564061221583_1_alg».proof.Proof.Gen.ReferenceIdeal.Run
import proofs.«179160_j61564061221583_1_alg».proof.Proof.Gen.ReferenceIdeal.Read
import proofs.«179160_j61564061221583_1_alg».proof.Proof.Gen.Pre_finite_inputs
import proofs.«179160_j61564061221583_1_alg».proof.Proof.SpecAlg
import proofs.«179160_j61564061221583_1_alg».proof.Proof.KRun
import proofs.«179160_j61564061221583_1_alg».proof.Proof.KVal
import proofs.«179160_j61564061221583_1_alg».proof.Proof.RVal
import proofs.«179160_j61564061221583_1_alg».proof.Proof.PreReal
import Idealize.ShloMosaic.Adequacy
import Idealize.ShloMosaic.Init

noncomputable section

namespace Cert.Proof

open Idealize.ShloMosaic Idealize.ShloMosaic.TcCoe Idealize.SL.Sem Cert.BP

/-- The two programs' remaps are one function: the same operations over the same shape facts. -/
theorem remapR_eq_remapK (v : Vect) (op : IVec SO 32) :
    Cert.ReferenceIdeal.Hand.remapR (F := Ideal) v op = Cert.KernelIdeal.Hand.remapK (F := Ideal) v op := rfl

/-- The kernel's remap keeps a vector of real numbers real. -/
theorem remapK_isReal (op : IVec SO 32) (v : Vect) (h : ∀ i, IsReal (v i)) :
    ∀ i, IsReal (Cert.KernelIdeal.Hand.remapK (F := Ideal) v op i) :=
  remapG_isReal _ _ _ _ _ _ _ v op h

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2.2)
    (Cert.ReferenceIdeal.Value.run (F := Ideal) m ρ)

theorem preserves : Cert.preserves_Kernel_KernelIdeal := trivial

/-- At the ideal instance the kernel's three result arrays hold the sums-first form of the schedule, the reference's
    the additions-first form, of arguments that agree; the two forms are equal on real matrices. -/
theorem algebraic : Cert.algebraic_KernelIdeal_ReferenceIdeal := by
  intro m ρ m' ρ' hpre hagree
  refine ⟨fun c => out0K (Cert.KernelIdeal.Hand.Q0 m c) (Cert.KernelIdeal.Hand.Q1 m c) (Cert.KernelIdeal.Hand.Q2 m c) (Cert.KernelIdeal.Hand.Q3 m c) (Cert.KernelIdeal.Hand.T0 m c) (Cert.KernelIdeal.Hand.T1 m c) (Cert.KernelIdeal.Hand.T2 m c),
    fun c => out1K (Cert.KernelIdeal.Hand.Q0 m c) (Cert.KernelIdeal.Hand.Q1 m c) (Cert.KernelIdeal.Hand.Q2 m c) (Cert.KernelIdeal.Hand.T0 m c) (Cert.KernelIdeal.Hand.T1 m c) (Cert.KernelIdeal.Hand.T2 m c),
    fun c => out2K (Cert.KernelIdeal.Hand.Q0 m c) (Cert.KernelIdeal.Hand.Q1 m c) (Cert.KernelIdeal.Hand.T0 m c) (Cert.KernelIdeal.Hand.T1 m c) (Cert.KernelIdeal.Hand.T2 m c), ?_, ?_⟩
  · -- the kernel: the run with its results, each result array read through the program
    refine (θ_run Cert.KernelIdeal.defs _ _).mono (fun r h c => ?_) (Cert.KernelIdeal.Gen.run_results (F := Ideal) m ρ)
    obtain ⟨h0, h1, h2, hargs⟩ := h c
    exact ⟨h0.trans (Cert.KernelIdeal.Hand.kernel_out0 m ρ c), h1.trans (Cert.KernelIdeal.Hand.kernel_out1 m ρ c),
      h2.trans (Cert.KernelIdeal.Hand.kernel_out2 m ρ c), hargs⟩
  · -- the reference: its generated run, its results read as the additions-first form, which is the sums-first form
    refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6⟩ := hagree c
    obtain ⟨hr0, hr1⟩ := Cert.PreReal.real_of_pre _ _ _ _ _ _ _ (hpre c)
    obtain ⟨e0, e1, e2⟩ := schedule_eq (Cert.KernelIdeal.Hand.Q0 m c) (Cert.KernelIdeal.Hand.Q1 m c) (Cert.KernelIdeal.Hand.Q2 m c) (Cert.KernelIdeal.Hand.Q3 m c)
      (Cert.KernelIdeal.Hand.T0 m c) (Cert.KernelIdeal.Hand.T1 m c) (Cert.KernelIdeal.Hand.T2 m c) hr0 hr1
      (fun v hv => remapK_isReal _ v hv) (fun v hv => remapK_isReal _ v hv)
    refine ⟨h0.trans ?_, h1.trans ?_, h2.trans ?_, hargs⟩
    · rw [Cert.ReferenceIdeal.Read.val_main_v93_eq, Cert.ReferenceIdeal.Hand.ref_out0, a0, a1, a2, a3, a4, a5, a6]
      exact e0
    · rw [Cert.ReferenceIdeal.Read.val_main_v69_eq, Cert.ReferenceIdeal.Hand.ref_out1, a0, a1, a2, a3, a4, a5]
      exact e1
    · rw [Cert.ReferenceIdeal.Read.val_main_v45_eq, Cert.ReferenceIdeal.Hand.ref_out2, a0, a1, a2, a3, a4]
      exact e2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
